-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S16384 : Shape := ⟨1, ![16384]⟩
abbrev S32x32 : Shape := ⟨2, ![32, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384 : S_.BroadcastsInDim S16384 (![] : Fin 0 → Fin S16384.rank)
  reducesTo_S16384_S_d0 : S16384.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  main_v23

def fn {F : FTy → Type} [FloatOps F] (main_arg0 : FVec F S16384x32 .f32) (main_arg1 : FVec F S16384x16384 .f32) (main_arg2 : FVec F S16384x16384 .f32) (main_arg3 : FVec F S16384 .f32) (main_arg4 : FVec F S32x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_v13 main_v16
-- ==== Kernel.lean ====
abbrev S16384x32 : Shape := ⟨2, ![16384, 32]⟩
abbrev S16384x16384 : Shape := ⟨2, ![16384, 16384]⟩
abbrev S16384 : Shape := ⟨1, ![16384]⟩
abbrev S32x32 : Shape := ⟨2, ![32, 32]⟩
abbrev S16384x1 : Shape := ⟨2, ![16384, 1]⟩
abbrev S4096x32 : Shape := ⟨2, ![4096, 32]⟩
abbrev S512x4096 : Shape := ⟨2, ![512, 4096]⟩
abbrev S512x1 : Shape := ⟨2, ![512, 1]⟩
abbrev S512x32 : Shape := ⟨2, ![512, 32]⟩

abbrev nBuf : Space → Nat
  | .hbm => 8
  | .vmem => 17
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S16384x16384, .f32⟩
  | .hbm, ⟨3, _⟩ => ⟨S16384, .f32⟩
  | .hbm, ⟨4, _⟩ => ⟨S32x32, .f32⟩
  | .hbm, ⟨5, _⟩ => ⟨S16384x1, .f32⟩
  | .hbm, ⟨6, _⟩ => ⟨S16384x32, .f32⟩
  | .hbm, ⟨7, _⟩ => ⟨S16384x32, .f32⟩
  | .local _ .vmem, ⟨0, _⟩ => ⟨S4096x32, .f32⟩
  | .local _ .vmem, ⟨1, _⟩ => ⟨S4096x32, .f32⟩
  | .local _ .vmem, ⟨2, _⟩ => ⟨S32x32, .f32⟩
  | .local _ .vmem, ⟨3, _⟩ => ⟨S512x4096, .f32⟩
  | .local _ .vmem, ⟨4, _⟩ => ⟨S512x4096, .f32⟩
  | .local _ .vmem, ⟨5, _⟩ => ⟨S512x1, .f32⟩
  | .local _ .vmem, ⟨6, _⟩ => ⟨S512x1, .f32⟩
  | .local _ .vmem, ⟨7, _⟩ => ⟨S512x32, .f32⟩
  | .local _ .vmem, ⟨8, _⟩ => ⟨S512x32, .f32⟩
  | .local _ .vmem, ⟨9, _⟩ => ⟨S512x32, .f32⟩
  | .local _ .vmem, ⟨10, _⟩ => ⟨S512x4096, .f32⟩
  | .local _ .vmem, ⟨11, _⟩ => ⟨S512x4096, .f32⟩
  | .local _ .vmem, ⟨12, _⟩ => ⟨S4096x32, .f32⟩
  | .local _ .vmem, ⟨13, _⟩ => ⟨S4096x32, .f32⟩
  | .local _ .vmem, ⟨14, _⟩ => ⟨S512x32, .f32⟩
  | .local _ .vmem, ⟨15, _⟩ => ⟨S512x32, .f32⟩
  | .local _ .vmem, ⟨16, _⟩ => ⟨S512x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S16384_S16384x1 : S16384.ShapeCasts S16384x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S4096x32_S4096x32_0_0 : ∀ a, (![0, 0] : Fin 2 → Nat) a + S4096x32.size a ≤ S4096x32.size a
  h_S4096x32 : 0 < S4096x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x32 : S512x1.Broadcasts S512x32
  shapeCasts_S4096x32_S4096x32 : S4096x32.ShapeCasts S4096x32
  dot_S4096x32_S32x32_S4096x32_1_0_0_1_n_n_wf : DotDims.WF S4096x32 S32x32 S4096x32 [1] [0] [0] [1] [] []
  dot_S512x4096_S4096x32_S512x32_1_0_0_1_n_n_wf : DotDims.WF S512x4096 S4096x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S16384x32.size a
  hwx0_0 : ∀ i : grid0.Coords, EltTy.bits .f32 = 32 ∨ (Rect.block (s := S16384x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x16384.size a
  hwx0_2 : ∀ i : grid0.Coords, EltTy.bits .f32 = 32 ∨ (Rect.block (s := S16384x16384) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S16384x32.size a
  hwx0_4 : ∀ i : grid0.Coords, EltTy.bits .f32 = 32 ∨ (Rect.block (s := S16384x32) S512x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x16384.size a
  hwx1_0 : ∀ i : grid1.Coords, EltTy.bits .f32 = 32 ∨ (Rect.block (s := S16384x16384) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S16384x32.size a
  hwx1_1 : ∀ i : grid1.Coords, EltTy.bits .f32 = 32 ∨ (Rect.block (s := S16384x32) S4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x32.size a ≤ S16384x32.size a
  hwx1_2 : ∀ i : grid1.Coords, EltTy.bits .f32 = 32 ∨ (Rect.block (s := S16384x32) S512x32.size (cc1_transform_2 i) (hinb1_2 i)).WholeWords (EltTy.packing .f32)

variable [Facts₀]

def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x32 : Shape := ⟨2, ![16384, 32]⟩
abbrev S16384x16384 : Shape := ⟨2, ![16384, 16384]⟩
abbrev S16384 : Shape := ⟨1, ![16384]⟩
abbrev S32x32 : Shape := ⟨2, ![32, 32]⟩
abbrev S16384x1 : Shape := ⟨2, ![16384, 1]⟩

abbrev nBuf : Space → Nat
  | .hbm => 11
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S16384x16384, .f32⟩
  | .hbm, ⟨3, _⟩ => ⟨S16384, .f32⟩
  | .hbm, ⟨4, _⟩ => ⟨S32x32, .f32⟩
  | .hbm, ⟨5, _⟩ => ⟨S16384x32, .f32⟩
  | .hbm, ⟨6, _⟩ => ⟨S16384x32, .f32⟩
  | .hbm, ⟨7, _⟩ => ⟨S16384x1, .f32⟩
  | .hbm, ⟨8, _⟩ => ⟨S16384x32, .f32⟩
  | .hbm, ⟨9, _⟩ => ⟨S16384x32, .f32⟩
  | .hbm, ⟨10, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  dot_S16384x32_S32x32_S16384x32_1_0_0_1_n_n_wf : DotDims.WF S16384x32 S32x32 S16384x32 [1] [0] [0] [1] [] []
  dot_S16384x16384_S16384x32_S16384x32_1_0_0_1_n_n_wf : DotDims.WF S16384x16384 S16384x32 S16384x32 [1] [0] [0] [1] [] []

variable [Facts₀]

def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf

class Facts : Prop extends Facts₀ where

variable [Facts]
-- ==== Proof.LibWhole.lean ====
/-
  Whole-buffer stores read back.

  A buffer of shape `S` written through the rectangle that starts at offset zero in every axis and has
  the buffer's own extents is written whole: whatever it held before, and whatever earlier stores
  did, it then holds the payload of that store. The same for a load through that rectangle: it reads
  the whole contents. These are the only accesses an accumulator kept in a scratch buffer makes
  (reset whole, read whole, stored back whole), so its contents after a step are a plain function of
  its contents before.
-/
import Idealize.ShloMosaic.Lib.Pipeline.FrameBody
import Idealize.ShloMosaic.Lib.Pipeline.Value

namespace Idealize.ShloMosaic.View

variable {Val : EltTy → Type} [∀ e, Nonempty (Val e)] {S : Shape} {e : EltTy}
variable {sig : RefSig} {κ : Kind} {sp : Space}

/-- Two zero offsets, however spelt, are the zero function. -/
theorem zero2 : (![0, 0] : Fin 2 → Nat) = fun _ => 0 := by
  funext a; fin_cases a <;> rfl

/-- After ONE store through the whole-shape rectangle the buffer reads as that store's payload,
    whatever it held before. -/
theorem read_writes_whole₁ (v : View sig κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : Piece Val S e)]) = w := by
  rw [read_writes_eq_canon v f _ (fun y => ⟨_, List.mem_singleton_self _, mem_set_unit_zero h inb y⟩),
    canon_unit_zero h]

/-- After a LAST store through the whole-shape rectangle the buffer reads as that store's payload,
    whatever the earlier stores were. -/
theorem read_writes_whole_cons (v : View sig κ sp S e) (f : v.ty.Contents Val) {off : Fin S.rank → Nat}
    (h : off = fun _ => 0) (inb : ∀ a, off a + S.size a ≤ S.size a) (w : S.Idx → Val e)
    (L : List (Piece Val S e)) :
    v.read Val (v.writes Val f ((⟨Rect.unit off S.size inb, w⟩ : Piece Val S e) :: L)) = w := by
  rw [read_writes_eq_canon v f _ (fun y => ⟨_, List.mem_cons_self, mem_set_unit_zero h inb y⟩),
    canon_cons_unit_zero h]

/-- A load through the whole-shape rectangle of a whole buffer's contents reads those contents. -/
theorem readAt_whole (v : View sig κ sp S e) (f : v.ty.Contents Val) {off : Fin S.rank → Nat}
    (h : off = fun _ => 0) (inb : ∀ a, off a + S.size a ≤ S.size a) :
    v.readAt Val (Rect.unit off S.size inb).toLoadRect f = v.read Val f := by
  rw [readAt_eq_ld, ld_unit_zero h]

end Idealize.ShloMosaic.View
-- ==== Proof.WordSteps.lean ====
/-
  One grid step of each kernel, as a function of what its buffers hold.

  Both kernels keep an accumulator `acc` in a scratch buffer across the four steps k = 0, 1, 2, 3 of
  a row block. A step reads its operand blocks whole, and
    * at k = 0 first resets `acc` to zero,
    * always replaces `acc` by `acc + (partial product of the step's blocks)`,
    * at k = 3 then writes the output block from the new `acc` (scaled row by row by the diagonal
      block in the first kernel, as it is in the second).
  So a step is one of three shapes — first, middle, last — and each is stated here on ANY whole
  buffers at ANY contents: the operand buffers come back as they were, the accumulator at the
  step's payload of the operands and its old contents, the output buffer untouched except in the
  last step. The payloads (`k0_pay1/2/3`, `k1_pay1/2`) are the printed arithmetic, kept folded.
-/
import proofs.«148808_j42442866819263_1_alg».proof.Proof.Gen.Kernel.Launch
import proofs.«148808_j42442866819263_1_alg».proof.Proof.Gen.Kernel.Skeleton
import proofs.«148808_j42442866819263_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«148808_j42442866819263_1_alg».proof.Proof.LibWhole

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as the printed bodies compute them from the grid point -/

/-- First kernel: "this is the row block's first step" (k = 0), -/
abbrev reset0 (i : grid0.Coords) : Prop := (Scalar.cmpi .ne (Scalar.extui (Scalar.cmpi .eq (BitVec.ofNat 32 (i 1).val) 0#32)) 0#32) = 1#1
/-- and "this is its last step" (k = 3). -/
abbrev final0 (i : grid0.Coords) : Prop := k0_cond2 i = 1#1
/-- Second kernel: the same two tests. -/
abbrev reset1 (i : grid1.Coords) : Prop := (Scalar.cmpi .ne (Scalar.extui (Scalar.cmpi .eq (BitVec.ofNat 32 (i 1).val) 0#32)) 0#32) = 1#1
abbrev final1 (i : grid1.Coords) : Prop := k1_cond2 i = 1#1

/-- Closes "this buffer, written whole, reads back as the payload": the names the run gave to loaded
    values and store lists are opened, a last whole store is its payload, a whole load of a whole
    buffer is its contents, a whole load after one whole store is that store's payload. -/
macro "whole_reads" : tactic => `(tactic| (
  sl_unfold_words
  simp only [View.read_writes_whole_cons (S := S512x32) _ _ View.zero2, View.read_writes_whole₁ (S := S512x32) _ _ View.zero2,
    View.readAt_whole (S := S512x32) _ _ View.zero2, View.readAt_whole (S := S512x4096) _ _ View.zero2,
    View.readAt_whole (S := S4096x32) _ _ View.zero2, View.readAt_whole (S := S32x32) _ _ View.zero2,
    View.readAt_whole (S := S512x1) _ _ View.zero2, View.readCov_unit_zero (S := S512x32) _ View.zero2,
    Memref.IsWhole.read_unread]))

/-! ## The first kernel: `acc += winv_blk · (feat_blk · W)`, output `acc ⊙ diag_blk` at the end -/

/-- First step of a row block: the accumulator, whatever it held, becomes the first partial product added to zero. -/
theorem step0_first (c : Dev nD) (i : grid0.Coords) (arg2 : Memref sig .tc .vmem S4096x32 .f32) (harg2 : arg2.IsWhole)
    (arg3 : Memref sig .tc .vmem S32x32 .f32) (harg3 : arg3.IsWhole) (arg4 : Memref sig .tc .vmem S512x4096 .f32) (harg4 : arg4.IsWhole)
    (arg5 : Memref sig .tc .vmem S512x1 .f32) (harg5 : arg5.IsWhole) (arg6 : Memref sig .tc .vmem S512x32 .f32) (harg6 : arg6.IsWhole)
    (arg7 : Memref sig .tc .vmem S512x32 .f32) (harg7 : arg7.IsWhole) (hr : reset0 i) (hf : ¬final0 i)
    (x0 : Vec F S4096x32 .f32) (x1 : Vec F S32x32 .f32) (x2 : Vec F S512x4096 .f32) (x3 : Vec F S512x1 .f32)
    (xo : Vec F S512x32 .f32) (xs : Vec F S512x32 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare xs
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare (k0_pay2 x0 x1 x2 k0_pay1)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HO]
  · iexists _; isplitr; · ipureintro; exact hfo
    iexact HO
  iexists _; isplitr
  swap; · iexact HS
  ipureintro; whole_reads

/-- A middle step: the accumulator takes one more partial product. -/
theorem step0_mid (c : Dev nD) (i : grid0.Coords) (arg2 : Memref sig .tc .vmem S4096x32 .f32) (harg2 : arg2.IsWhole)
    (arg3 : Memref sig .tc .vmem S32x32 .f32) (harg3 : arg3.IsWhole) (arg4 : Memref sig .tc .vmem S512x4096 .f32) (harg4 : arg4.IsWhole)
    (arg5 : Memref sig .tc .vmem S512x1 .f32) (harg5 : arg5.IsWhole) (arg6 : Memref sig .tc .vmem S512x32 .f32) (harg6 : arg6.IsWhole)
    (arg7 : Memref sig .tc .vmem S512x32 .f32) (harg7 : arg7.IsWhole) (hr : ¬reset0 i) (hf : ¬final0 i)
    (x0 : Vec F S4096x32 .f32) (x1 : Vec F S32x32 .f32) (x2 : Vec F S512x4096 .f32) (x3 : Vec F S512x1 .f32)
    (xo : Vec F S512x32 .f32) (xs : Vec F S512x32 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare xs
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare (k0_pay2 x0 x1 x2 xs)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HO]
  · iexists _; isplitr; · ipureintro; exact hfo
    iexact HO
  iexists _; isplitr
  swap; · iexact HS
  ipureintro; whole_reads

/-- Last step: the accumulator takes the last partial product, and the output block is that sum with each row scaled by the diagonal block's entry. -/
theorem step0_last (c : Dev nD) (i : grid0.Coords) (arg2 : Memref sig .tc .vmem S4096x32 .f32) (harg2 : arg2.IsWhole)
    (arg3 : Memref sig .tc .vmem S32x32 .f32) (harg3 : arg3.IsWhole) (arg4 : Memref sig .tc .vmem S512x4096 .f32) (harg4 : arg4.IsWhole)
    (arg5 : Memref sig .tc .vmem S512x1 .f32) (harg5 : arg5.IsWhole) (arg6 : Memref sig .tc .vmem S512x32 .f32) (harg6 : arg6.IsWhole)
    (arg7 : Memref sig .tc .vmem S512x32 .f32) (harg7 : arg7.IsWhole) (hr : ¬reset0 i) (hf : final0 i)
    (x0 : Vec F S4096x32 .f32) (x1 : Vec F S32x32 .f32) (x2 : Vec F S512x4096 .f32) (x3 : Vec F S512x1 .f32)
    (xo : Vec F S512x32 .f32) (xs : Vec F S512x32 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare xs
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare (k0_pay3 (k0_pay2 x0 x1 x2 xs) x3)
        ∗ owns (c : Thread nD τ) arg7 fullShare (k0_pay2 x0 x1 x2 xs)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HO]
  · iexists _; isplitr
    swap; · iexact HO
    ipureintro; whole_reads
  iexists _; isplitr
  swap; · iexact HS
  ipureintro; whole_reads

/-! ## The second kernel: `acc += wav_blk · y_blk`, output `acc` at the end -/

/-- First step of a row block: the accumulator becomes the first partial product added to zero. -/
theorem step1_first (c : Dev nD) (i : grid1.Coords) (arg2 : Memref sig .tc .vmem S512x4096 .f32) (harg2 : arg2.IsWhole)
    (arg3 : Memref sig .tc .vmem S4096x32 .f32) (harg3 : arg3.IsWhole) (arg4 : Memref sig .tc .vmem S512x32 .f32) (harg4 : arg4.IsWhole)
    (arg5 : Memref sig .tc .vmem S512x32 .f32) (harg5 : arg5.IsWhole) (hr : reset1 i) (hf : ¬final1 i)
    (x0 : Vec F S512x4096 .f32) (x1 : Vec F S4096x32 .f32) (xo : Vec F S512x32 .f32) (xs : Vec F S512x32 .f32)
    (E : Set ℕ) (K : PUnit → sProp 𝕄) :
    iprop(owns (c : Thread nD τ) arg2 fullShare x0
        ∗ owns (c : Thread nD τ) arg3 fullShare x1
        ∗ owns (c : Thread nD τ) arg4 fullShare xo
        ∗ owns (c : Thread nD τ) arg5 fullShare xs
        ∗ (iprop(owns (c : Thread nD τ) arg2 fullShare x0
        ∗ owns (c : Thread nD τ) arg3 fullShare x1
        ∗ owns (c : Thread nD τ) arg4 fullShare xo
        ∗ owns (c : Thread nD τ) arg5 fullShare (k1_pay2 x0 x1 k1_pay1)) -∗ K ⟨⟩))
      ⊢ wp frame (wpE (defs₀ (F := F)) Variants.none c none) E (cc1__kernel2 i arg2 harg2 arg3 harg3 arg4 harg4 arg5 harg5) K := by
  simp only [cc1__kernel2_eq_skeleton]; unfold cc1__kernel2_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro; whole_reads

/-- A middle step: the accumulator takes one more partial product. -/
theorem step1_mid (c : Dev nD) (i : grid1.Coords) (arg2 : Memref sig .tc .vmem S512x4096 .f32) (harg2 : arg2.IsWhole)
    (arg3 : Memref sig .tc .vmem S4096x32 .f32) (harg3 : arg3.IsWhole) (arg4 : Memref sig .tc .vmem S512x32 .f32) (harg4 : arg4.IsWhole)
    (arg5 : Memref sig .tc .vmem S512x32 .f32) (harg5 : arg5.IsWhole) (hr : ¬reset1 i) (hf : ¬final1 i)
    (x0 : Vec F S512x4096 .f32) (x1 : Vec F S4096x32 .f32) (xo : Vec F S512x32 .f32) (xs : Vec F S512x32 .f32)
    (E : Set ℕ) (K : PUnit → sProp 𝕄) :
    iprop(owns (c : Thread nD τ) arg2 fullShare x0
        ∗ owns (c : Thread nD τ) arg3 fullShare x1
        ∗ owns (c : Thread nD τ) arg4 fullShare xo
        ∗ owns (c : Thread nD τ) arg5 fullShare xs
        ∗ (iprop(owns (c : Thread nD τ) arg2 fullShare x0
        ∗ owns (c : Thread nD τ) arg3 fullShare x1
        ∗ owns (c : Thread nD τ) arg4 fullShare xo
        ∗ owns (c : Thread nD τ) arg5 fullShare (k1_pay2 x0 x1 xs)) -∗ K ⟨⟩))
      ⊢ wp frame (wpE (defs₀ (F := F)) Variants.none c none) E (cc1__kernel2 i arg2 harg2 arg3 harg3 arg4 harg4 arg5 harg5) K := by
  simp only [cc1__kernel2_eq_skeleton]; unfold cc1__kernel2_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro; whole_reads

/-- Last step: the accumulator takes the last partial product and the output block is a copy of it. -/
theorem step1_last (c : Dev nD) (i : grid1.Coords) (arg2 : Memref sig .tc .vmem S512x4096 .f32) (harg2 : arg2.IsWhole)
    (arg3 : Memref sig .tc .vmem S4096x32 .f32) (harg3 : arg3.IsWhole) (arg4 : Memref sig .tc .vmem S512x32 .f32) (harg4 : arg4.IsWhole)
    (arg5 : Memref sig .tc .vmem S512x32 .f32) (harg5 : arg5.IsWhole) (hr : ¬reset1 i) (hf : final1 i)
    (x0 : Vec F S512x4096 .f32) (x1 : Vec F S4096x32 .f32) (xo : Vec F S512x32 .f32) (xs : Vec F S512x32 .f32)
    (E : Set ℕ) (K : PUnit → sProp 𝕄) :
    iprop(owns (c : Thread nD τ) arg2 fullShare x0
        ∗ owns (c : Thread nD τ) arg3 fullShare x1
        ∗ owns (c : Thread nD τ) arg4 fullShare xo
        ∗ owns (c : Thread nD τ) arg5 fullShare xs
        ∗ (iprop(owns (c : Thread nD τ) arg2 fullShare x0
        ∗ owns (c : Thread nD τ) arg3 fullShare x1
        ∗ owns (c : Thread nD τ) arg4 fullShare (k1_pay2 x0 x1 xs)
        ∗ owns (c : Thread nD τ) arg5 fullShare (k1_pay2 x0 x1 xs)) -∗ K ⟨⟩))
      ⊢ wp frame (wpE (defs₀ (F := F)) Variants.none c none) E (cc1__kernel2 i arg2 harg2 arg3 harg3 arg4 harg4 arg5 harg5) K := by
  simp only [cc1__kernel2_eq_skeleton]; unfold cc1__kernel2_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro; whole_reads
  iexists _; isplitr
  swap; · iexact HS
  ipureintro; whole_reads

end Cert.Kernel.Hand

end
-- ==== Proof.WordRegion0.lean ====
/-
  The first kernel's region: what its buffers hold, point by point.

  The grid has 128 points t = 4·i + k (row block i of 32, step k of 4). At point t the kernel is
  handed the blocks
    feat_t  = rows [4096k, 4096k+4096) of features           (4096 × 32)
    W       = the weight matrix                               (32 × 32)
    winv_t  = rows block i, columns block k of wavelets_inv   (512 × 4096)
    diag_t  = rows block i of the diagonal, as a column       (512 × 1)
  and keeps an accumulator in a scratch buffer: after point t it holds
    acc t = (if k = 0 then 0 else acc (t-1)) + winv_t · (feat_t · W),
  and at k = 3 the output block i is written as acc t with row r scaled by diag_t r.
  This module states that as the region's proof data — the accumulator `acc0` by recursion on the
  point, the invariant "the scratch holds `acc0` of the point before" — and proves the body's
  obligation at every point from the three step shapes.
-/
import proofs.«148808_j42442866819263_1_alg».proof.Proof.Gen.Kernel.Launch
import proofs.«148808_j42442866819263_1_alg».proof.Proof.Gen.Kernel.Skeleton
import proofs.«148808_j42442866819263_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«148808_j42442866819263_1_alg».proof.Proof.WordSteps

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at it
variable (V : (c : Dev nD) → (b : Ref sig .tc) → Buf (Elt F) ((c : Thread nD τ).loc b))

/-! ## The schedule: which points reset, which write the output -/

/-- The reset test holds exactly at the points with k = 0, -/
theorem reset0_iff : ∀ t : Fin cfg0.N, reset0 (grid0.coords t) ↔ t.val % 4 = 0 :=
  (by decide +kernel : ∀ t : Fin grid0.N, reset0 (grid0.coords t) ↔ t.val % 4 = 0)
/-- and the output test exactly at the points with k = 3. -/
theorem final0_iff : ∀ t : Fin cfg0.N, final0 (grid0.coords t) ↔ t.val % 4 = 3 :=
  (by decide +kernel : ∀ t : Fin grid0.N, final0 (grid0.coords t) ↔ t.val % 4 = 3)
/-- Away from k = 3 the output window is idle (nothing is stored into it) -/
theorem out0_idle : ∀ t : Fin cfg0.N, ¬t.val % 4 = 3 → cfg0.idle 4 (grid0.coords t) = true := by decide +kernel
/-- and is not written back; -/
theorem out0_noflush (t : Fin cfg0.N) (h : ¬t.val % 4 = 3) : (cfg0.win 4).flush t = false :=
  Bool.eq_false_iff.mpr fun hf => h ((flush0_4 t).mp hf)
/-- at k = 3 it is live. -/
theorem out0_live : ∀ t : Fin cfg0.N, t.val % 4 = 3 → cfg0.idle 4 (grid0.coords t) = false := by decide +kernel

/-! ## The operand blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four operand blocks, each at its literal type. -/
abbrev feat0 (c : Dev nD) (t : Fin cfg0.N) : Vec F S4096x32 .f32 := iblk0 V c 0 t
abbrev wgt0 (c : Dev nD) (t : Fin cfg0.N) : Vec F S32x32 .f32 := iblk0 V c 1 t
abbrev winv0 (c : Dev nD) (t : Fin cfg0.N) : Vec F S512x4096 .f32 := iblk0 V c 2 t
abbrev diag0 (c : Dev nD) (t : Fin cfg0.N) : Vec F S512x1 .f32 := iblk0 V c 3 t

/-! ## The accumulator -/

/-- What the scratch buffer holds after point `n`: the point's partial product added to zero at the
    first step of a row block, to what the point before left otherwise. -/
def acc0 (c : Dev nD) : (n : ℕ) → n < cfg0.N → Vec F S512x32 .f32
  | 0, h => k0_pay2 (feat0 V c ⟨0, h⟩) (wgt0 V c ⟨0, h⟩) (winv0 V c ⟨0, h⟩) k0_pay1
  | n + 1, h => k0_pay2 (feat0 V c ⟨n + 1, h⟩) (wgt0 V c ⟨n + 1, h⟩) (winv0 V c ⟨n + 1, h⟩)
      (if (n + 1) % 4 = 0 then k0_pay1 else acc0 c n (Nat.lt_of_succ_lt h))

/-- At the first step of a row block the accumulator starts from zero; -/
theorem acc0_first (c : Dev nD) (t : Fin cfg0.N) (h0 : t.val % 4 = 0) :
    acc0 V c t.val t.isLt = k0_pay2 (feat0 V c t) (wgt0 V c t) (winv0 V c t) k0_pay1 := by
  obtain ⟨n, hn⟩ := t
  cases n with
  | zero => rfl
  | succ n => simp only [acc0, if_pos h0]
/-- at a later step it continues from the point before. -/
theorem acc0_next (c : Dev nD) (t : Fin cfg0.N) (h0 : ¬t.val % 4 = 0) :
    acc0 V c t.val t.isLt = k0_pay2 (feat0 V c t) (wgt0 V c t) (winv0 V c t)
      (acc0 V c (t.val - 1) (Nat.lt_of_le_of_lt (Nat.sub_le _ _) t.isLt)) := by
  obtain ⟨n, hn⟩ := t
  cases n with
  | zero => exact absurd (Nat.zero_mod _) h0
  | succ n => simp only [acc0, if_neg h0]; rfl

/-- The output block a last step writes: the accumulator, each row scaled by the diagonal's entry. -/
def out0 (c : Dev nD) (t : Fin cfg0.N) : Vec F S512x32 .f32 := k0_pay3 (acc0 V c t.val t.isLt) (diag0 V c t)

/-! ## The invariant: the scratch buffer carries the accumulator -/

/-- The scratch buffer, whole. -/
abbrev scr0 : Memref sig .tc .vmem S512x32 .f32 := Memref.whole cc0_scratch0
/-- Every other scoped buffer of the core that this region does not stage, at anything. -/
abbrev rest0 (c : Dev nD) : sProp 𝕄 :=
  Pipeline.scopedRestBut (Ix := Unit) (Name := ℕ) (U := UR sig nD τ) (Lvl := ℕ) (Val := Elt F) spec0 c [cc0_scratch0]

/-- The scoped buffers the region does not stage are the scratch, at something, and the others. -/
theorem scoped0_split (c : Dev nD) :
    (Pipeline.scopedRest (Ix := Unit) (Name := ℕ) (U := UR sig nD τ) (Lvl := ℕ) (Val := Elt F) spec0 c : sProp 𝕄)
      = iprop((∃ d, owns (c : Thread nD τ) scr0 fullShare d) ∗ rest0 c) := by
  rw [Pipeline.scopedRest_split_of_list spec0 c [cc0_scratch0] (by decide) (by decide)]
  simp only [bigSepL_singleton, scr0, owns_whole]
  rfl

/-- Before point `n`: at the region's entry nothing is known of the scratch; afterwards it holds the
    accumulator of the point before. -/
def Phi0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scr0 fullShare (acc0 V c n hn) ∗ rest0 c)

theorem Phi0_zero (c : Dev nD) (h : 0 ≤ cfg0.N) :
    Phi0 V c 0 h = (Pipeline.scopedRest (Ix := Unit) (Name := ℕ) (U := UR sig nD τ) (Lvl := ℕ) (Val := Elt F) spec0 c : sProp 𝕄) := rfl
theorem Phi0_succ (c : Dev nD) (n : ℕ) (hn : n < cfg0.N) :
    Phi0 V c (n + 1) hn = iprop(owns (c : Thread nD τ) scr0 fullShare (acc0 V c n hn) ∗ rest0 c) := rfl
theorem Phi0_pos (c : Dev nD) (n : ℕ) (h : n ≤ cfg0.N) (hz : n ≠ 0) :
    Phi0 V c n h = iprop(owns (c : Thread nD τ) scr0 fullShare (acc0 V c (n - 1) (by omega)) ∗ rest0 c) := by
  cases n with
  | zero => exact absurd rfl hz
  | succ n => rfl
/-- In either case the scratch is held at something. -/
theorem Phi0_any (c : Dev nD) (n : ℕ) (h : n ≤ cfg0.N) :
    Phi0 V c n h ⊢ iprop((∃ d, owns (c : Thread nD τ) scr0 fullShare d) ∗ rest0 c) := by
  cases n with
  | zero => rw [Phi0_zero, scoped0_split]
  | succ n =>
    rw [Phi0_succ]
    iintro ⟨HS, HR⟩
    isplitl [HS]; · iexists _; iexact HS
    iexact HR

/-! ## The proof data -/

/-- The arrays as the region finds them; after the body each operand's buffer still at its block, the
    output's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- Each operand's current buffer holds its block at every point, fetched there or not: the body leaves
    it in place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- An operand's buffer is handed back at its block (the window is never idle). -/
theorem leaves0_0 (c : Dev nD) (t : Fin cfg0.N) : (dat0 V c).leavesExact 0 t = owns (c : Thread nD τ) (st0_0 t) fullShare (feat0 V c t) := by
  unfold Dat.leavesExact; rw [show cfg0.idle 0 (grid0.coords t) = false from rfl, after0_0]
theorem leaves0_1 (c : Dev nD) (t : Fin cfg0.N) : (dat0 V c).leavesExact 1 t = owns (c : Thread nD τ) (st0_1 t) fullShare (wgt0 V c t) := by
  unfold Dat.leavesExact; rw [show cfg0.idle 1 (grid0.coords t) = false from rfl, after0_1]
theorem leaves0_2 (c : Dev nD) (t : Fin cfg0.N) : (dat0 V c).leavesExact 2 t = owns (c : Thread nD τ) (st0_2 t) fullShare (winv0 V c t) := by
  unfold Dat.leavesExact; rw [show cfg0.idle 2 (grid0.coords t) = false from rfl, after0_2]
theorem leaves0_3 (c : Dev nD) (t : Fin cfg0.N) : (dat0 V c).leavesExact 3 t = owns (c : Thread nD τ) (st0_3 t) fullShare (diag0 V c t) := by
  unfold Dat.leavesExact; rw [show cfg0.idle 3 (grid0.coords t) = false from rfl, after0_3]
/-- At a last step the output's buffer is handed back at the output block. -/
theorem leaves0_4_last (c : Dev nD) (t : Fin cfg0.N) (h3 : t.val % 4 = 3) :
    (dat0 V c).leavesExact 4 t = owns (c : Thread nD τ) (st0_4 t) fullShare (out0 V c t) := by
  unfold Dat.leavesExact; rw [out0_live t h3, after0_4]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 1600000 in
/-- The body at any point: the operands' buffers hold their blocks; the point's residue mod 4 says which
    step shape it is; the invariant hands the step the scratch at the accumulator of the point before (at
    anything, at a first step) and takes it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ, Phi0_castSucc]
  rw [leaves0_0, leaves0_1, leaves0_2, leaves0_3]
  by_cases h3 : t.val % 4 = 3
  · have h0 : ¬t.val % 4 = 0 := by omega
    have hz : t.val ≠ 0 := by omega
    rw [leaves0_4_last V c t h3, Phi0_pos V c _ _ hz]
    unfold out0; rw [acc0_next V c t h0]
    iintro ⟨⟨HS, HR⟩, Ho, ⟨%d0, H0⟩, ⟨%d1, H1⟩, ⟨%d2, H2⟩, ⟨%d3, H3⟩, ⟨%d4, H4⟩⟩
    iapply (step0_last c (grid0.coords t) _ _ _ _ _ _ _ _ _ _ _ _ (fun h => h0 ((reset0_iff t).mp h)) ((final0_iff t).mpr h3)
      (feat0 V c t) (wgt0 V c t) (winv0 V c t) (diag0 V c t) ((dat0 V c).before 4 t d4)
      (acc0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (out0_idle t h3) (out0_noflush t h3)]
    by_cases h0 : t.val % 4 = 0
    · rw [acc0_first V c t h0]
      iintro ⟨HΦ, Ho, ⟨%d0, H0⟩, ⟨%d1, H1⟩, ⟨%d2, H2⟩, ⟨%d3, H3⟩, ⟨%d4, H4⟩⟩
      ihave HΦ' := (Phi0_any V c _ _) $$ HΦ
      icases HΦ' with ⟨⟨%ds, HS⟩, HR⟩
      iapply (step0_first c (grid0.coords t) _ _ _ _ _ _ _ _ _ _ _ _ ((reset0_iff t).mpr h0) (fun h => h3 ((final0_iff t).mp h))
        (feat0 V c t) (wgt0 V c t) (winv0 V c t) (diag0 V c t) ((dat0 V c).before 4 t d4) ds Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4
    · have hz : t.val ≠ 0 := fun e => h0 (by rw [e])
      rw [acc0_next V c t h0, Phi0_pos V c _ _ hz]
      iintro ⟨⟨HS, HR⟩, Ho, ⟨%d0, H0⟩, ⟨%d1, H1⟩, ⟨%d2, H2⟩, ⟨%d3, H3⟩, ⟨%d4, H4⟩⟩
      iapply (step0_mid c (grid0.coords t) _ _ _ _ _ _ _ _ _ _ _ _ (fun h => h0 ((reset0_iff t).mp h)) (fun h => h3 ((final0_iff t).mp h))
        (feat0 V c t) (wgt0 V c t) (winv0 V c t) (diag0 V c t) ((dat0 V c).before 4 t d4)
        (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordRegion1.lean ====
/-
  The second kernel's region: what its buffers hold, point by point.

  The grid again has 128 points t = 4·i + k. At point t the kernel is handed
    wav_t = rows block i, columns block k of wavelets          (512 × 4096)
    y_t   = rows [4096k, 4096k+4096) of the first region's result  (4096 × 32)
  and keeps an accumulator in its own scratch buffer: after point t it holds
    acc t = (if k = 0 then 0 else acc (t-1)) + wav_t · y_t,
  and at k = 3 the output block i is written as a copy of acc t.
  As for the first region: the accumulator `acc1` by recursion on the point, the invariant "the
  scratch holds `acc1` of the point before", and the body's obligation from the three step shapes.
-/
import proofs.«148808_j42442866819263_1_alg».proof.Proof.Gen.Kernel.Launch
import proofs.«148808_j42442866819263_1_alg».proof.Proof.Gen.Kernel.Skeleton
import proofs.«148808_j42442866819263_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import proofs.«148808_j42442866819263_1_alg».proof.Proof.WordSteps

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The schedule -/

theorem reset1_iff : ∀ t : Fin cfg1.N, reset1 (grid1.coords t) ↔ t.val % 4 = 0 :=
  (by decide +kernel : ∀ t : Fin grid1.N, reset1 (grid1.coords t) ↔ t.val % 4 = 0)
theorem final1_iff : ∀ t : Fin cfg1.N, final1 (grid1.coords t) ↔ t.val % 4 = 3 :=
  (by decide +kernel : ∀ t : Fin grid1.N, final1 (grid1.coords t) ↔ t.val % 4 = 3)
/-- Away from k = 3 the output window is idle -/
theorem out1_idle : ∀ t : Fin cfg1.N, ¬t.val % 4 = 3 → cfg1.idle 2 (grid1.coords t) = true := by decide +kernel
/-- and is not written back; -/
theorem out1_noflush (t : Fin cfg1.N) (h : ¬t.val % 4 = 3) : (cfg1.win 2).flush t = false :=
  Bool.eq_false_iff.mpr fun hf => h ((flush1_2 t).mp hf)
/-- at k = 3 it is live. -/
theorem out1_live : ∀ t : Fin cfg1.N, t.val % 4 = 3 → cfg1.idle 2 (grid1.coords t) = false := by decide +kernel

/-! ## The operand blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wav1 (c : Dev nD) (t : Fin cfg1.N) : Vec F S512x4096 .f32 := iblk1 V c 0 t
abbrev y1 (c : Dev nD) (t : Fin cfg1.N) : Vec F S4096x32 .f32 := iblk1 V c 1 t

/-! ## The accumulator -/

/-- What the scratch buffer holds after point `n`. -/
def acc1 (c : Dev nD) : (n : ℕ) → n < cfg1.N → Vec F S512x32 .f32
  | 0, h => k1_pay2 (wav1 V c ⟨0, h⟩) (y1 V c ⟨0, h⟩) k1_pay1
  | n + 1, h => k1_pay2 (wav1 V c ⟨n + 1, h⟩) (y1 V c ⟨n + 1, h⟩)
      (if (n + 1) % 4 = 0 then k1_pay1 else acc1 c n (Nat.lt_of_succ_lt h))

theorem acc1_first (c : Dev nD) (t : Fin cfg1.N) (h0 : t.val % 4 = 0) :
    acc1 V c t.val t.isLt = k1_pay2 (wav1 V c t) (y1 V c t) k1_pay1 := by
  obtain ⟨n, hn⟩ := t
  cases n with
  | zero => rfl
  | succ n => simp only [acc1, if_pos h0]
theorem acc1_next (c : Dev nD) (t : Fin cfg1.N) (h0 : ¬t.val % 4 = 0) :
    acc1 V c t.val t.isLt = k1_pay2 (wav1 V c t) (y1 V c t)
      (acc1 V c (t.val - 1) (Nat.lt_of_le_of_lt (Nat.sub_le _ _) t.isLt)) := by
  obtain ⟨n, hn⟩ := t
  cases n with
  | zero => exact absurd (Nat.zero_mod _) h0
  | succ n => simp only [acc1, if_neg h0]; rfl

/-! ## The invariant -/

abbrev scr1 : Memref sig .tc .vmem S512x32 .f32 := Memref.whole cc1_scratch0
abbrev rest1 (c : Dev nD) : sProp 𝕄 :=
  Pipeline.scopedRestBut (Ix := Unit) (Name := ℕ) (U := UR sig nD τ) (Lvl := ℕ) (Val := Elt F) spec1 c [cc1_scratch0]

theorem scoped1_split (c : Dev nD) :
    (Pipeline.scopedRest (Ix := Unit) (Name := ℕ) (U := UR sig nD τ) (Lvl := ℕ) (Val := Elt F) spec1 c : sProp 𝕄)
      = iprop((∃ d, owns (c : Thread nD τ) scr1 fullShare d) ∗ rest1 c) := by
  rw [Pipeline.scopedRest_split_of_list spec1 c [cc1_scratch0] (by decide) (by decide)]
  simp only [bigSepL_singleton, scr1, owns_whole]
  rfl

def Phi1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scr1 fullShare (acc1 V c n hn) ∗ rest1 c)

theorem Phi1_zero (c : Dev nD) (h : 0 ≤ cfg1.N) :
    Phi1 V c 0 h = (Pipeline.scopedRest (Ix := Unit) (Name := ℕ) (U := UR sig nD τ) (Lvl := ℕ) (Val := Elt F) spec1 c : sProp 𝕄) := rfl
theorem Phi1_succ (c : Dev nD) (n : ℕ) (hn : n < cfg1.N) :
    Phi1 V c (n + 1) hn = iprop(owns (c : Thread nD τ) scr1 fullShare (acc1 V c n hn) ∗ rest1 c) := rfl
theorem Phi1_pos (c : Dev nD) (n : ℕ) (h : n ≤ cfg1.N) (hz : n ≠ 0) :
    Phi1 V c n h = iprop(owns (c : Thread nD τ) scr1 fullShare (acc1 V c (n - 1) (by omega)) ∗ rest1 c) := by
  cases n with
  | zero => exact absurd rfl hz
  | succ n => rfl
theorem Phi1_any (c : Dev nD) (n : ℕ) (h : n ≤ cfg1.N) :
    Phi1 V c n h ⊢ iprop((∃ d, owns (c : Thread nD τ) scr1 fullShare d) ∗ rest1 c) := by
  cases n with
  | zero => rw [Phi1_zero, scoped1_split]
  | succ n =>
    rw [Phi1_succ]
    iintro ⟨HS, HR⟩
    isplitl [HS]; · iexists _; iexact HS
    iexact HR

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem leaves1_0 (c : Dev nD) (t : Fin cfg1.N) : (dat1 V c).leavesExact 0 t = owns (c : Thread nD τ) (st1_0 t) fullShare (wav1 V c t) := by
  unfold Dat.leavesExact; rw [show cfg1.idle 0 (grid1.coords t) = false from rfl, after1_0]
theorem leaves1_1 (c : Dev nD) (t : Fin cfg1.N) : (dat1 V c).leavesExact 1 t = owns (c : Thread nD τ) (st1_1 t) fullShare (y1 V c t) := by
  unfold Dat.leavesExact; rw [show cfg1.idle 1 (grid1.coords t) = false from rfl, after1_1]
theorem leaves1_2_last (c : Dev nD) (t : Fin cfg1.N) (h3 : t.val % 4 = 3) :
    (dat1 V c).leavesExact 2 t = owns (c : Thread nD τ) (st1_2 t) fullShare (acc1 V c t.val t.isLt) := by
  unfold Dat.leavesExact; rw [out1_live t h3, after1_2]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 1600000 in
/-- The body at any point, by the point's residue mod 4. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ, Phi1_castSucc]
  rw [leaves1_0, leaves1_1]
  by_cases h3 : t.val % 4 = 3
  · have h0 : ¬t.val % 4 = 0 := by omega
    have hz : t.val ≠ 0 := by omega
    rw [leaves1_2_last V c t h3, Phi1_pos V c _ _ hz, acc1_next V c t h0]
    iintro ⟨⟨HS, HR⟩, Ho, ⟨%d0, H0⟩, ⟨%d1, H1⟩, ⟨%d2, H2⟩⟩
    iapply (step1_last c (grid1.coords t) _ _ _ _ _ _ _ _ (fun h => h0 ((reset1_iff t).mp h)) ((final1_iff t).mpr h3)
      (wav1 V c t) (y1 V c t) ((dat1 V c).before 2 t d2)
      (acc1 V c (t.val - 1) (Nat.lt_of_le_of_lt (Nat.sub_le _ _) t.isLt)) Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · rw [Dat.leavesExact_idle (dat1 V c) 2 t (out1_idle t h3) (out1_noflush t h3)]
    by_cases h0 : t.val % 4 = 0
    · rw [acc1_first V c t h0]
      iintro ⟨HΦ, Ho, ⟨%d0, H0⟩, ⟨%d1, H1⟩, ⟨%d2, H2⟩⟩
      ihave HΦ' := (Phi1_any V c _ _) $$ HΦ
      icases HΦ' with ⟨⟨%ds, HS⟩, HR⟩
      iapply (step1_first c (grid1.coords t) _ _ _ _ _ _ _ _ ((reset1_iff t).mpr h0) (fun h => h3 ((final1_iff t).mp h))
        (wav1 V c t) (y1 V c t) ((dat1 V c).before 2 t d2) ds Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · have hz : t.val ≠ 0 := fun e => h0 (by rw [e])
      rw [acc1_next V c t h0, Phi1_pos V c _ _ hz]
      iintro ⟨⟨HS, HR⟩, Ho, ⟨%d0, H0⟩, ⟨%d1, H1⟩, ⟨%d2, H2⟩⟩
      iapply (step1_mid c (grid1.coords t) _ _ _ _ _ _ _ _ (fun h => h0 ((reset1_iff t).mp h)) (fun h => h3 ((final1_iff t).mp h))
        (wav1 V c t) (y1 V c t) ((dat1 V c).before 2 t d2)
        (acc1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WordLaunch.lean ====
/-
  The run of @main: a reshape of the diagonal into a column, the first kernel's region, the second's.

  Between two items every unscoped buffer of the core is held at known contents:
    at launch          the memory `m`;
    after the reshape  `m` with the column `main_v0` written;
    after region 0     that, with `main_v1` at what the first pipeline's write-backs leave;
    after region 1     that, with `main_v2` at what the second pipeline's write-backs leave.
  A region takes its windows' arrays out of those buffers at entry and puts them back at exit; its
  invariant is fed the scoped buffers it does not stage and returns them; the generator register and
  the buffers it has no window on pass it by. The run's post reads every unscoped buffer off the last
  contents: the five arguments are as launched, and the result is the second region's output array.
-/
import proofs.«148808_j42442866819263_1_alg».proof.Proof.Gen.Kernel.Launch
import proofs.«148808_j42442866819263_1_alg».proof.Proof.Gen.Kernel.Skeleton
import proofs.«148808_j42442866819263_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic
import Idealize.ShloMosaic.Lib.Pipeline.RegionsLoop
import Idealize.ShloMosaic.Lib.Pipeline.FrameSuffix
import proofs.«148808_j42442866819263_1_alg».proof.Proof.Gen.Kernel.Regions
import proofs.«148808_j42442866819263_1_alg».proof.Proof.WordRegion0
import proofs.«148808_j42442866819263_1_alg».proof.Proof.WordRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wl (c : Dev nD) : Valuation τ sig (Elt F) := fun b => m (c, b)
/-- After the reshape: what the first region is entered from. -/
abbrev Wh (c : Dev nD) : Valuation τ sig (Elt F) := StableHlo.after hostOps0 (Wl m c)
abbrev Vh : (c : Dev nD) → (b : Ref sig .tc) → Buf (Elt F) ((c : Thread nD τ).loc b) := fun c b => Wh m c b
/-- After the first region: its arrays at what its write-backs leave, every other buffer as entered. -/
def Wy (c : Dev nD) : Valuation τ sig (Elt F) :=
  Pipeline.withArrays spec0 c (Wh m c) fun w => (dat0 (Vh m) c).arrAt w cfg0.N
abbrev Vy : (c : Dev nD) → (b : Ref sig .tc) → Buf (Elt F) ((c : Thread nD τ).loc b) := fun c b => Wy m c b
/-- After the second region. -/
def Wz (c : Dev nD) : Valuation τ sig (Elt F) :=
  Pipeline.withArrays spec1 c (Wy m c) fun w => (dat1 (Vy m) c).arrAt w cfg1.N
abbrev Vz : (c : Dev nD) → (b : Ref sig .tc) → Buf (Elt F) ((c : Thread nD τ).loc b) := fun c b => Wz m c b

theorem Wy_arr (c : Dev nD) (w : Fin cfg0.W) :
    Wy m c (Proc.devRef .tc (Pipeline.arrRef spec0 w)) = (dat0 (Vh m) c).arrAt w cfg0.N := by
  unfold Wy; exact Pipeline.withArrays_arr spec0 launch0.win.arr_inj c _ _ w
theorem Wy_of_ne (c : Dev nD) (b : Ref sig .tc) (hb : ∀ w, Pipeline.arrRef spec0 w ≠ b) :
    Wy m c (Proc.devRef .tc b) = Wh m c (Proc.devRef .tc b) := by
  unfold Wy; exact Pipeline.withArrays_of_ne spec0 c _ _ b hb
theorem Wz_arr (c : Dev nD) (w : Fin cfg1.W) :
    Wz m c (Proc.devRef .tc (Pipeline.arrRef spec1 w)) = (dat1 (Vy m) c).arrAt w cfg1.N := by
  unfold Wz; exact Pipeline.withArrays_arr spec1 launch1.win.arr_inj c _ _ w
theorem Wz_of_ne (c : Dev nD) (b : Ref sig .tc) (hb : ∀ w, Pipeline.arrRef spec1 w ≠ b) :
    Wz m c (Proc.devRef .tc b) = Wy m c (Proc.devRef .tc b) := by
  unfold Wz; exact Pipeline.withArrays_of_ne spec1 c _ _ b hb

theorem exit0_arr (c : Dev nD) (w : Fin cfg0.W) : (dat0 (Vh m) c).arrAt w cfg0.N = Vy m c (Pipeline.arrRef spec0 w) :=
  (Wy_arr m c w).symm
theorem exit0_rest (c : Dev nD) : ∀ b, b ∉ Finset.univ.image (Pipeline.arrRef spec0) → Vy m c b = Vh m c b :=
  fun b hb => Wy_of_ne m c b fun w e => hb (Finset.mem_image.mpr ⟨w, Finset.mem_univ _, e⟩)
theorem exit1_arr (c : Dev nD) (w : Fin cfg1.W) : (dat1 (Vy m) c).arrAt w cfg1.N = Vz m c (Pipeline.arrRef spec1 w) :=
  (Wz_arr m c w).symm
theorem exit1_rest (c : Dev nD) : ∀ b, b ∉ Finset.univ.image (Pipeline.arrRef spec1) → Vz m c b = Vy m c b :=
  fun b hb => Wz_of_ne m c b fun w e => hb (Finset.mem_image.mpr ⟨w, Finset.mem_univ _, e⟩)

/-! ## The arguments end as launched -/

/-- The reshape writes only the column `main_v0`. -/
theorem Wh_of (c : Dev nD) (r : Ref sig .tc) (h : r ∉ hostOps0_W) : Wh m c r = m ((c : Thread nD τ).loc r) :=
  StableHlo.after_of_writes_sub hostOps0 _ hostOps0_writes h

/-- features: an operand of the first region, bypassed by the second. -/
theorem Wz_arg0 (c : Dev nD) : Wz m c (Proc.devRef .tc main_arg0) = m ((c : Thread nD τ).loc main_arg0) :=
  calc Wz m c (Proc.devRef .tc main_arg0)
    _ = Wy m c (Proc.devRef .tc main_arg0) := Wz_of_ne m c main_arg0 (by decide)
    _ = Wh m c (Proc.devRef .tc main_arg0) := (Wy_arr m c 0).trans (((dat0 (Vh m) c).arrAt_in 0 rfl _).trans (A_eq0 (Vh m) c 0))
    _ = m ((c : Thread nD τ).loc main_arg0) := Wh_of m c main_arg0 (by decide)
/-- wavelets: bypassed by the first region, an operand of the second. -/
theorem Wz_arg1 (c : Dev nD) : Wz m c (Proc.devRef .tc main_arg1) = m ((c : Thread nD τ).loc main_arg1) :=
  calc Wz m c (Proc.devRef .tc main_arg1)
    _ = Wy m c (Proc.devRef .tc main_arg1) := (Wz_arr m c 0).trans (((dat1 (Vy m) c).arrAt_in 0 rfl _).trans (A_eq1 (Vy m) c 0))
    _ = Wh m c (Proc.devRef .tc main_arg1) := Wy_of_ne m c main_arg1 (by decide)
    _ = m ((c : Thread nD τ).loc main_arg1) := Wh_of m c main_arg1 (by decide)
/-- wavelets_inv: an operand of the first region. -/
theorem Wz_arg2 (c : Dev nD) : Wz m c (Proc.devRef .tc main_arg2) = m ((c : Thread nD τ).loc main_arg2) :=
  calc Wz m c (Proc.devRef .tc main_arg2)
    _ = Wy m c (Proc.devRef .tc main_arg2) := Wz_of_ne m c main_arg2 (by decide)
    _ = Wh m c (Proc.devRef .tc main_arg2) := (Wy_arr m c 2).trans (((dat0 (Vh m) c).arrAt_in 2 rfl _).trans (A_eq0 (Vh m) c 2))
    _ = m ((c : Thread nD τ).loc main_arg2) := Wh_of m c main_arg2 (by decide)
/-- diag_filter: read by the reshape only. -/
theorem Wz_arg3 (c : Dev nD) : Wz m c (Proc.devRef .tc main_arg3) = m ((c : Thread nD τ).loc main_arg3) :=
  calc Wz m c (Proc.devRef .tc main_arg3)
    _ = Wy m c (Proc.devRef .tc main_arg3) := Wz_of_ne m c main_arg3 (by decide)
    _ = Wh m c (Proc.devRef .tc main_arg3) := Wy_of_ne m c main_arg3 (by decide)
    _ = m ((c : Thread nD τ).loc main_arg3) := Wh_of m c main_arg3 (by decide)
/-- weight_matrix: an operand of the first region. -/
theorem Wz_arg4 (c : Dev nD) : Wz m c (Proc.devRef .tc main_arg4) = m ((c : Thread nD τ).loc main_arg4) :=
  calc Wz m c (Proc.devRef .tc main_arg4)
    _ = Wy m c (Proc.devRef .tc main_arg4) := Wz_of_ne m c main_arg4 (by decide)
    _ = Wh m c (Proc.devRef .tc main_arg4) := (Wy_arr m c 1).trans (((dat0 (Vh m) c).arrAt_in 1 rfl _).trans (A_eq0 (Vh m) c 1))
    _ = m ((c : Thread nD τ).loc main_arg4) := Wh_of m c main_arg4 (by decide)

/-! ## The proof data of both pipelines, and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vh m) c
  | ⟨1, _⟩ => fun c => dat1 (Vy m) c

/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- The reshape as a segment over the unscoped buffers from the launch contents. -/
abbrev hseg : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Wl m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without what the core owes: every unscoped buffer at the last contents, the generator
    register at some state. -/
abbrev Tend (c : Dev nD) : sProp 𝕄 := iprop(StableHlo.held (c : Thread nD τ) (Pipeline.ucRefs τ sig) (Wz m c) ∗ ∃ r, prngReg c r)

theorem N0_pos : cfg0.N ≠ 0 := by have : cfg0.N = 128 := N_0; omega
theorem N1_pos : cfg1.N ≠ 0 := by have : cfg1.N = 128 := N_1; omega

/-! ## The regions as segments -/

set_option backward.isDefEq.respectTransparency.types false in
/-- The first region: entered from the contents after the reshape, left at `Wy`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (Wy m c) ∗ R c)
  X _ := iprop(emp)
  Y _ := iprop(emp)
  Z c := iprop(Pipeline.unscopedRest (Ix := Unit) (Name := ℕ) (U := UR sig nD τ) (Lvl := ℕ) spec0 c (Vh m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Phi0 (Vh m) c 0 (Nat.zero_le _) from rfl, Phi0_zero]
    iintro ⟨-, -, Hr⟩
    iexact Hr
  hout c := by
    rw [Pipeline.ownSems0_none, show (pdats m 0 c).Φ (Fin.last _) = Phi0 (Vh m) c cfg0.N (le_refl _) from rfl,
      Phi0_pos (Vh m) c _ _ N0_pos]
    have hs := scoped0_split (F := F) c
    iintro ⟨HS, HR⟩
    isplitr; · iempintro
    isplitr; · iempintro
    iapply (Entails.of_eq hs.symm)
    isplitl [HS]; · iexists _; iexact HS
    iexact HR
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (Vy m c) ((pdats m 0 c).arrAt · cfg0.N) (exit0_arr m c) (exit0_rest m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The second region: entered from `Wy`, left at `Wz`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Vy m) c).loose
  hwaits := Pipeline.hwaits_of_owed_zero _ _ _ _ L lv 1 fun _ _ => rfl
  pre c := iprop(StableHlo.held (c : Thread nD τ) (Pipeline.ucRefs τ sig) (Wy m c) ∗ R c)
  post c := iprop(Tend m c ∗ ∃ W, owes (c : Thread nD τ) (0 : CellTallies nD τ sig Unit) W)
  X _ := iprop(emp)
  Y _ := iprop(emp)
  Z c := iprop(Pipeline.unscopedRest (Ix := Unit) (Name := ℕ) (U := UR sig nD τ) (Lvl := ℕ) spec1 c (Vy m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (Vy m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Phi1 (Vy m) c 0 (Nat.zero_le _) from rfl, Phi1_zero]
    iintro ⟨-, -, Hr⟩
    iexact Hr
  hout c := by
    rw [Pipeline.ownSems0_none, show (pdats m 1 c).Φ (Fin.last _) = Phi1 (Vy m) c cfg1.N (le_refl _) from rfl,
      Phi1_pos (Vy m) c _ _ N1_pos]
    have hs := scoped1_split (F := F) c
    iintro ⟨HS, HR⟩
    isplitr; · iempintro
    isplitr; · iempintro
    iapply (Entails.of_eq hs.symm)
    isplitl [HS]; · iexists _; iexact HS
    iexact HR
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vy m c) (Vz m c) ((pdats m 1 c).arrAt · cfg1.N) (exit1_arr m c) (exit1_rest m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## The run -/

/-- @main's three items, in order. -/
abbrev segs : List (Pipeline.Seg (pcfgs (F := F)) adm (pdats m) () defs₀ Variants.none L lv) :=
  [ .host (hseg m), .region (reg0 m), .region (reg1 m) ]

/-- @main is the run of those segments. -/
theorem main_run (c : Dev nD) : main (F := F) c = Pipeline.Seg.run (segs m) := (main_chain c).trans (by chain_rfl)

set_option backward.isDefEq.respectTransparency.types false in
/-- Every weakly fair execution of @main from memory `m` with zero counters terminates, and in every final
    memory each unscoped buffer of each core holds the last boundary's contents `Wz`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = Wz m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c))
    (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wz m c b)
    (hfin := fun c s' => by
      iintro ⟨⟨Hh, -⟩, HSI⟩
      unfold StableHlo.held
      imodintro
      iapply (pointsTo_read_all (Pipeline.ucRefs τ sig) (fun b => (((c : Thread nD τ)).1, b)) (Wz m c) s')
      isplitl [Hh] <;> iassumption)
    (hQ := fun s h => h)

/-! ## What the run says of the arguments and of the result -/

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Wz_arg0 m c),
     (h c _ (mem_uc main_arg1 (by decide))).trans (Wz_arg1 m c),
     (h c _ (mem_uc main_arg2 (by decide))).trans (Wz_arg2 m c),
     (h c _ (mem_uc main_arg3 (by decide))).trans (Wz_arg3 m c),
     (h c _ (mem_uc main_arg4 (by decide))).trans (Wz_arg4 m c)⟩) (run_main m ρ)

/-- The result array ends at what the second pipeline's write-backs leave, and the arguments as launched. -/
theorem run_result : θ_run defs (onTc (τ := τ) (main (F := F))) ⟨m, fun _ => 0, ρ⟩ (fun r => ∀ c : Dev nD,
      r.2.mem ((c.tc : Thread nD τ).loc main_v2) = (dat1 (Vy m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v2 (by decide))).trans (Wz_arr m c 2),
     (h c _ (mem_uc main_arg0 (by decide))).trans (Wz_arg0 m c),
     (h c _ (mem_uc main_arg1 (by decide))).trans (Wz_arg1 m c),
     (h c _ (mem_uc main_arg2 (by decide))).trans (Wz_arg2 m c),
     (h c _ (mem_uc main_arg3 (by decide))).trans (Wz_arg3 m c),
     (h c _ (mem_uc main_arg4 (by decide))).trans (Wz_arg4 m c)⟩) (run_main m ρ)

end Cert.Kernel.Hand

end
-- ==== Proof.Steps.lean ====
/-
  One grid step of each kernel, as a function of what its buffers hold.

  Both kernels keep an accumulator `acc` in a scratch buffer across the four steps k = 0, 1, 2, 3 of
  a row block. A step reads its operand blocks whole, and
    * at k = 0 first resets `acc` to zero,
    * always replaces `acc` by `acc + (partial product of the step's blocks)`,
    * at k = 3 then writes the output block from the new `acc` (scaled row by row by the diagonal
      block in the first kernel, as it is in the second).
  So a step is one of three shapes — first, middle, last — and each is stated here on ANY whole
  buffers at ANY contents: the operand buffers come back as they were, the accumulator at the
  step's payload of the operands and its old contents, the output buffer untouched except in the
  last step. The payloads (`k0_pay1/2/3`, `k1_pay1/2`) are the printed arithmetic, kept folded.
-/
import proofs.«148808_j42442866819263_1_alg».proof.Proof.Gen.KernelIdeal.Launch
import proofs.«148808_j42442866819263_1_alg».proof.Proof.Gen.KernelIdeal.Skeleton
import proofs.«148808_j42442866819263_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«148808_j42442866819263_1_alg».proof.Proof.LibWhole

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, as the printed bodies compute them from the grid point -/

/-- First kernel: "this is the row block's first step" (k = 0), -/
abbrev reset0 (i : grid0.Coords) : Prop := (Scalar.cmpi .ne (Scalar.extui (Scalar.cmpi .eq (BitVec.ofNat 32 (i 1).val) 0#32)) 0#32) = 1#1
/-- and "this is its last step" (k = 3). -/
abbrev final0 (i : grid0.Coords) : Prop := k0_cond2 i = 1#1
/-- Second kernel: the same two tests. -/
abbrev reset1 (i : grid1.Coords) : Prop := (Scalar.cmpi .ne (Scalar.extui (Scalar.cmpi .eq (BitVec.ofNat 32 (i 1).val) 0#32)) 0#32) = 1#1
abbrev final1 (i : grid1.Coords) : Prop := k1_cond2 i = 1#1

/-- Closes "this buffer, written whole, reads back as the payload": the names the run gave to loaded
    values and store lists are opened, a last whole store is its payload, a whole load of a whole
    buffer is its contents, a whole load after one whole store is that store's payload. -/
macro "whole_reads" : tactic => `(tactic| (
  sl_unfold_words
  simp only [View.read_writes_whole_cons (S := S512x32) _ _ View.zero2, View.read_writes_whole₁ (S := S512x32) _ _ View.zero2,
    View.readAt_whole (S := S512x32) _ _ View.zero2, View.readAt_whole (S := S512x4096) _ _ View.zero2,
    View.readAt_whole (S := S4096x32) _ _ View.zero2, View.readAt_whole (S := S32x32) _ _ View.zero2,
    View.readAt_whole (S := S512x1) _ _ View.zero2, View.readCov_unit_zero (S := S512x32) _ View.zero2,
    Memref.IsWhole.read_unread]))

/-! ## The first kernel: `acc += winv_blk · (feat_blk · W)`, output `acc ⊙ diag_blk` at the end -/

/-- First step of a row block: the accumulator, whatever it held, becomes the first partial product added to zero. -/
theorem step0_first (c : Dev nD) (i : grid0.Coords) (arg2 : Memref sig .tc .vmem S4096x32 .f32) (harg2 : arg2.IsWhole)
    (arg3 : Memref sig .tc .vmem S32x32 .f32) (harg3 : arg3.IsWhole) (arg4 : Memref sig .tc .vmem S512x4096 .f32) (harg4 : arg4.IsWhole)
    (arg5 : Memref sig .tc .vmem S512x1 .f32) (harg5 : arg5.IsWhole) (arg6 : Memref sig .tc .vmem S512x32 .f32) (harg6 : arg6.IsWhole)
    (arg7 : Memref sig .tc .vmem S512x32 .f32) (harg7 : arg7.IsWhole) (hr : reset0 i) (hf : ¬final0 i)
    (x0 : Vec F S4096x32 .f32) (x1 : Vec F S32x32 .f32) (x2 : Vec F S512x4096 .f32) (x3 : Vec F S512x1 .f32)
    (xo : Vec F S512x32 .f32) (xs : Vec F S512x32 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare xs
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare (k0_pay2 x0 x1 x2 k0_pay1)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HO]
  · iexists _; isplitr; · ipureintro; exact hfo
    iexact HO
  iexists _; isplitr
  swap; · iexact HS
  ipureintro; whole_reads

/-- A middle step: the accumulator takes one more partial product. -/
theorem step0_mid (c : Dev nD) (i : grid0.Coords) (arg2 : Memref sig .tc .vmem S4096x32 .f32) (harg2 : arg2.IsWhole)
    (arg3 : Memref sig .tc .vmem S32x32 .f32) (harg3 : arg3.IsWhole) (arg4 : Memref sig .tc .vmem S512x4096 .f32) (harg4 : arg4.IsWhole)
    (arg5 : Memref sig .tc .vmem S512x1 .f32) (harg5 : arg5.IsWhole) (arg6 : Memref sig .tc .vmem S512x32 .f32) (harg6 : arg6.IsWhole)
    (arg7 : Memref sig .tc .vmem S512x32 .f32) (harg7 : arg7.IsWhole) (hr : ¬reset0 i) (hf : ¬final0 i)
    (x0 : Vec F S4096x32 .f32) (x1 : Vec F S32x32 .f32) (x2 : Vec F S512x4096 .f32) (x3 : Vec F S512x1 .f32)
    (xo : Vec F S512x32 .f32) (xs : Vec F S512x32 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare xs
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare (k0_pay2 x0 x1 x2 xs)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HO]
  · iexists _; isplitr; · ipureintro; exact hfo
    iexact HO
  iexists _; isplitr
  swap; · iexact HS
  ipureintro; whole_reads

/-- Last step: the accumulator takes the last partial product, and the output block is that sum with each row scaled by the diagonal block's entry. -/
theorem step0_last (c : Dev nD) (i : grid0.Coords) (arg2 : Memref sig .tc .vmem S4096x32 .f32) (harg2 : arg2.IsWhole)
    (arg3 : Memref sig .tc .vmem S32x32 .f32) (harg3 : arg3.IsWhole) (arg4 : Memref sig .tc .vmem S512x4096 .f32) (harg4 : arg4.IsWhole)
    (arg5 : Memref sig .tc .vmem S512x1 .f32) (harg5 : arg5.IsWhole) (arg6 : Memref sig .tc .vmem S512x32 .f32) (harg6 : arg6.IsWhole)
    (arg7 : Memref sig .tc .vmem S512x32 .f32) (harg7 : arg7.IsWhole) (hr : ¬reset0 i) (hf : final0 i)
    (x0 : Vec F S4096x32 .f32) (x1 : Vec F S32x32 .f32) (x2 : Vec F S512x4096 .f32) (x3 : Vec F S512x1 .f32)
    (xo : Vec F S512x32 .f32) (xs : Vec F S512x32 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare xo
        ∗ owns (c : Thread nD τ) arg7 fullShare xs
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare (k0_pay3 (k0_pay2 x0 x1 x2 xs) x3)
        ∗ owns (c : Thread nD τ) arg7 fullShare (k0_pay2 x0 x1 x2 xs)) -∗ K ⟨⟩))
      ⊢ wp frame (wpE (defs₀ (F := F)) Variants.none c none) E (cc0__kernel1 i arg2 harg2 arg3 harg3 arg4 harg4 arg5 harg5 arg6 harg6 arg7 harg7) K := by
  simp only [cc0__kernel1_eq_skeleton]; unfold cc0__kernel1_skel
  unfold owns
  iintro ⟨⟨%f0, %hf0, H0⟩, ⟨%f1, %hf1, H1⟩, ⟨%f2, %hf2, H2⟩, ⟨%f3, %hf3, H3⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HO]
  · iexists _; isplitr
    swap; · iexact HO
    ipureintro; whole_reads
  iexists _; isplitr
  swap; · iexact HS
  ipureintro; whole_reads

/-! ## The second kernel: `acc += wav_blk · y_blk`, output `acc` at the end -/

/-- First step of a row block: the accumulator becomes the first partial product added to zero. -/
theorem step1_first (c : Dev nD) (i : grid1.Coords) (arg2 : Memref sig .tc .vmem S512x4096 .f32) (harg2 : arg2.IsWhole)
    (arg3 : Memref sig .tc .vmem S4096x32 .f32) (harg3 : arg3.IsWhole) (arg4 : Memref sig .tc .vmem S512x32 .f32) (harg4 : arg4.IsWhole)
    (arg5 : Memref sig .tc .vmem S512x32 .f32) (harg5 : arg5.IsWhole) (hr : reset1 i) (hf : ¬final1 i)
    (x0 : Vec F S512x4096 .f32) (x1 : Vec F S4096x32 .f32) (xo : Vec F S512x32 .f32) (xs : Vec F S512x32 .f32)
    (E : Set ℕ) (K : PUnit → sProp 𝕄) :
    iprop(owns (c : Thread nD τ) arg2 fullShare x0
        ∗ owns (c : Thread nD τ) arg3 fullShare x1
        ∗ owns (c : Thread nD τ) arg4 fullShare xo
        ∗ owns (c : Thread nD τ) arg5 fullShare xs
        ∗ (iprop(owns (c : Thread nD τ) arg2 fullShare x0
        ∗ owns (c : Thread nD τ) arg3 fullShare x1
        ∗ owns (c : Thread nD τ) arg4 fullShare xo
        ∗ owns (c : Thread nD τ) arg5 fullShare (k1_pay2 x0 x1 k1_pay1)) -∗ K ⟨⟩))
      ⊢ wp frame (wpE (defs₀ (F := F)) Variants.none c none) E (cc1__kernel2 i arg2 harg2 arg3 harg3 arg4 harg4 arg5 harg5) K := by
  simp only [cc1__kernel2_eq_skeleton]; unfold cc1__kernel2_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro; whole_reads

/-- A middle step: the accumulator takes one more partial product. -/
theorem step1_mid (c : Dev nD) (i : grid1.Coords) (arg2 : Memref sig .tc .vmem S512x4096 .f32) (harg2 : arg2.IsWhole)
    (arg3 : Memref sig .tc .vmem S4096x32 .f32) (harg3 : arg3.IsWhole) (arg4 : Memref sig .tc .vmem S512x32 .f32) (harg4 : arg4.IsWhole)
    (arg5 : Memref sig .tc .vmem S512x32 .f32) (harg5 : arg5.IsWhole) (hr : ¬reset1 i) (hf : ¬final1 i)
    (x0 : Vec F S512x4096 .f32) (x1 : Vec F S4096x32 .f32) (xo : Vec F S512x32 .f32) (xs : Vec F S512x32 .f32)
    (E : Set ℕ) (K : PUnit → sProp 𝕄) :
    iprop(owns (c : Thread nD τ) arg2 fullShare x0
        ∗ owns (c : Thread nD τ) arg3 fullShare x1
        ∗ owns (c : Thread nD τ) arg4 fullShare xo
        ∗ owns (c : Thread nD τ) arg5 fullShare xs
        ∗ (iprop(owns (c : Thread nD τ) arg2 fullShare x0
        ∗ owns (c : Thread nD τ) arg3 fullShare x1
        ∗ owns (c : Thread nD τ) arg4 fullShare xo
        ∗ owns (c : Thread nD τ) arg5 fullShare (k1_pay2 x0 x1 xs)) -∗ K ⟨⟩))
      ⊢ wp frame (wpE (defs₀ (F := F)) Variants.none c none) E (cc1__kernel2 i arg2 harg2 arg3 harg3 arg4 harg4 arg5 harg5) K := by
  simp only [cc1__kernel2_eq_skeleton]; unfold cc1__kernel2_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro; whole_reads

/-- Last step: the accumulator takes the last partial product and the output block is a copy of it. -/
theorem step1_last (c : Dev nD) (i : grid1.Coords) (arg2 : Memref sig .tc .vmem S512x4096 .f32) (harg2 : arg2.IsWhole)
    (arg3 : Memref sig .tc .vmem S4096x32 .f32) (harg3 : arg3.IsWhole) (arg4 : Memref sig .tc .vmem S512x32 .f32) (harg4 : arg4.IsWhole)
    (arg5 : Memref sig .tc .vmem S512x32 .f32) (harg5 : arg5.IsWhole) (hr : ¬reset1 i) (hf : final1 i)
    (x0 : Vec F S512x4096 .f32) (x1 : Vec F S4096x32 .f32) (xo : Vec F S512x32 .f32) (xs : Vec F S512x32 .f32)
    (E : Set ℕ) (K : PUnit → sProp 𝕄) :
    iprop(owns (c : Thread nD τ) arg2 fullShare x0
        ∗ owns (c : Thread nD τ) arg3 fullShare x1
        ∗ owns (c : Thread nD τ) arg4 fullShare xo
        ∗ owns (c : Thread nD τ) arg5 fullShare xs
        ∗ (iprop(owns (c : Thread nD τ) arg2 fullShare x0
        ∗ owns (c : Thread nD τ) arg3 fullShare x1
        ∗ owns (c : Thread nD τ) arg4 fullShare (k1_pay2 x0 x1 xs)
        ∗ owns (c : Thread nD τ) arg5 fullShare (k1_pay2 x0 x1 xs)) -∗ K ⟨⟩))
      ⊢ wp frame (wpE (defs₀ (F := F)) Variants.none c none) E (cc1__kernel2 i arg2 harg2 arg3 harg3 arg4 harg4 arg5 harg5) K := by
  simp only [cc1__kernel2_eq_skeleton]; unfold cc1__kernel2_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg5.eq_unread hfs
  sl_exec (disch := first | exact hr | exact hf)
  sl_step
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro; whole_reads
  iexists _; isplitr
  swap; · iexact HS
  ipureintro; whole_reads

end Cert.KernelIdeal.Hand

end
-- ==== Proof.Region0.lean ====
/-
  The first kernel's region: what its buffers hold, point by point.

  The grid has 128 points t = 4·i + k (row block i of 32, step k of 4). At point t the kernel is
  handed the blocks
    feat_t  = rows [4096k, 4096k+4096) of features           (4096 × 32)
    W       = the weight matrix                               (32 × 32)
    winv_t  = rows block i, columns block k of wavelets_inv   (512 × 4096)
    diag_t  = rows block i of the diagonal, as a column       (512 × 1)
  and keeps an accumulator in a scratch buffer: after point t it holds
    acc t = (if k = 0 then 0 else acc (t-1)) + winv_t · (feat_t · W),
  and at k = 3 the output block i is written as acc t with row r scaled by diag_t r.
  This module states that as the region's proof data — the accumulator `acc0` by recursion on the
  point, the invariant "the scratch holds `acc0` of the point before" — and proves the body's
  obligation at every point from the three step shapes.
-/
import proofs.«148808_j42442866819263_1_alg».proof.Proof.Gen.KernelIdeal.Launch
import proofs.«148808_j42442866819263_1_alg».proof.Proof.Gen.KernelIdeal.Skeleton
import proofs.«148808_j42442866819263_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«148808_j42442866819263_1_alg».proof.Proof.Steps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at it
variable (V : (c : Dev nD) → (b : Ref sig .tc) → Buf (Elt F) ((c : Thread nD τ).loc b))

/-! ## The schedule: which points reset, which write the output -/

/-- The reset test holds exactly at the points with k = 0, -/
theorem reset0_iff : ∀ t : Fin cfg0.N, reset0 (grid0.coords t) ↔ t.val % 4 = 0 :=
  (by decide +kernel : ∀ t : Fin grid0.N, reset0 (grid0.coords t) ↔ t.val % 4 = 0)
/-- and the output test exactly at the points with k = 3. -/
theorem final0_iff : ∀ t : Fin cfg0.N, final0 (grid0.coords t) ↔ t.val % 4 = 3 :=
  (by decide +kernel : ∀ t : Fin grid0.N, final0 (grid0.coords t) ↔ t.val % 4 = 3)
/-- Away from k = 3 the output window is idle (nothing is stored into it) -/
theorem out0_idle : ∀ t : Fin cfg0.N, ¬t.val % 4 = 3 → cfg0.idle 4 (grid0.coords t) = true := by decide +kernel
/-- and is not written back; -/
theorem out0_noflush (t : Fin cfg0.N) (h : ¬t.val % 4 = 3) : (cfg0.win 4).flush t = false :=
  Bool.eq_false_iff.mpr fun hf => h ((flush0_4 t).mp hf)
/-- at k = 3 it is live. -/
theorem out0_live : ∀ t : Fin cfg0.N, t.val % 4 = 3 → cfg0.idle 4 (grid0.coords t) = false := by decide +kernel

/-! ## The operand blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four operand blocks, each at its literal type. -/
abbrev feat0 (c : Dev nD) (t : Fin cfg0.N) : Vec F S4096x32 .f32 := iblk0 V c 0 t
abbrev wgt0 (c : Dev nD) (t : Fin cfg0.N) : Vec F S32x32 .f32 := iblk0 V c 1 t
abbrev winv0 (c : Dev nD) (t : Fin cfg0.N) : Vec F S512x4096 .f32 := iblk0 V c 2 t
abbrev diag0 (c : Dev nD) (t : Fin cfg0.N) : Vec F S512x1 .f32 := iblk0 V c 3 t

/-! ## The accumulator -/

/-- What the scratch buffer holds after point `n`: the point's partial product added to zero at the
    first step of a row block, to what the point before left otherwise. -/
def acc0 (c : Dev nD) : (n : ℕ) → n < cfg0.N → Vec F S512x32 .f32
  | 0, h => k0_pay2 (feat0 V c ⟨0, h⟩) (wgt0 V c ⟨0, h⟩) (winv0 V c ⟨0, h⟩) k0_pay1
  | n + 1, h => k0_pay2 (feat0 V c ⟨n + 1, h⟩) (wgt0 V c ⟨n + 1, h⟩) (winv0 V c ⟨n + 1, h⟩)
      (if (n + 1) % 4 = 0 then k0_pay1 else acc0 c n (Nat.lt_of_succ_lt h))

/-- At the first step of a row block the accumulator starts from zero; -/
theorem acc0_first (c : Dev nD) (t : Fin cfg0.N) (h0 : t.val % 4 = 0) :
    acc0 V c t.val t.isLt = k0_pay2 (feat0 V c t) (wgt0 V c t) (winv0 V c t) k0_pay1 := by
  obtain ⟨n, hn⟩ := t
  cases n with
  | zero => rfl
  | succ n => simp only [acc0, if_pos h0]
/-- at a later step it continues from the point before. -/
theorem acc0_next (c : Dev nD) (t : Fin cfg0.N) (h0 : ¬t.val % 4 = 0) :
    acc0 V c t.val t.isLt = k0_pay2 (feat0 V c t) (wgt0 V c t) (winv0 V c t)
      (acc0 V c (t.val - 1) (Nat.lt_of_le_of_lt (Nat.sub_le _ _) t.isLt)) := by
  obtain ⟨n, hn⟩ := t
  cases n with
  | zero => exact absurd (Nat.zero_mod _) h0
  | succ n => simp only [acc0, if_neg h0]; rfl

/-- The output block a last step writes: the accumulator, each row scaled by the diagonal's entry. -/
def out0 (c : Dev nD) (t : Fin cfg0.N) : Vec F S512x32 .f32 := k0_pay3 (acc0 V c t.val t.isLt) (diag0 V c t)

/-! ## The invariant: the scratch buffer carries the accumulator -/

/-- The scratch buffer, whole. -/
abbrev scr0 : Memref sig .tc .vmem S512x32 .f32 := Memref.whole cc0_scratch0
/-- Every other scoped buffer of the core that this region does not stage, at anything. -/
abbrev rest0 (c : Dev nD) : sProp 𝕄 :=
  Pipeline.scopedRestBut (Ix := Unit) (Name := ℕ) (U := UR sig nD τ) (Lvl := ℕ) (Val := Elt F) spec0 c [cc0_scratch0]

/-- The scoped buffers the region does not stage are the scratch, at something, and the others. -/
theorem scoped0_split (c : Dev nD) :
    (Pipeline.scopedRest (Ix := Unit) (Name := ℕ) (U := UR sig nD τ) (Lvl := ℕ) (Val := Elt F) spec0 c : sProp 𝕄)
      = iprop((∃ d, owns (c : Thread nD τ) scr0 fullShare d) ∗ rest0 c) := by
  rw [Pipeline.scopedRest_split_of_list spec0 c [cc0_scratch0] (by decide) (by decide)]
  simp only [bigSepL_singleton, scr0, owns_whole]
  rfl

/-- Before point `n`: at the region's entry nothing is known of the scratch; afterwards it holds the
    accumulator of the point before. -/
def Phi0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scr0 fullShare (acc0 V c n hn) ∗ rest0 c)

theorem Phi0_zero (c : Dev nD) (h : 0 ≤ cfg0.N) :
    Phi0 V c 0 h = (Pipeline.scopedRest (Ix := Unit) (Name := ℕ) (U := UR sig nD τ) (Lvl := ℕ) (Val := Elt F) spec0 c : sProp 𝕄) := rfl
theorem Phi0_succ (c : Dev nD) (n : ℕ) (hn : n < cfg0.N) :
    Phi0 V c (n + 1) hn = iprop(owns (c : Thread nD τ) scr0 fullShare (acc0 V c n hn) ∗ rest0 c) := rfl
theorem Phi0_pos (c : Dev nD) (n : ℕ) (h : n ≤ cfg0.N) (hz : n ≠ 0) :
    Phi0 V c n h = iprop(owns (c : Thread nD τ) scr0 fullShare (acc0 V c (n - 1) (by omega)) ∗ rest0 c) := by
  cases n with
  | zero => exact absurd rfl hz
  | succ n => rfl
/-- In either case the scratch is held at something. -/
theorem Phi0_any (c : Dev nD) (n : ℕ) (h : n ≤ cfg0.N) :
    Phi0 V c n h ⊢ iprop((∃ d, owns (c : Thread nD τ) scr0 fullShare d) ∗ rest0 c) := by
  cases n with
  | zero => rw [Phi0_zero, scoped0_split]
  | succ n =>
    rw [Phi0_succ]
    iintro ⟨HS, HR⟩
    isplitl [HS]; · iexists _; iexact HS
    iexact HR

/-! ## The proof data -/

/-- The arrays as the region finds them; after the body each operand's buffer still at its block, the
    output's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- Each operand's current buffer holds its block at every point, fetched there or not: the body leaves
    it in place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- An operand's buffer is handed back at its block (the window is never idle). -/
theorem leaves0_0 (c : Dev nD) (t : Fin cfg0.N) : (dat0 V c).leavesExact 0 t = owns (c : Thread nD τ) (st0_0 t) fullShare (feat0 V c t) := by
  unfold Dat.leavesExact; rw [show cfg0.idle 0 (grid0.coords t) = false from rfl, after0_0]
theorem leaves0_1 (c : Dev nD) (t : Fin cfg0.N) : (dat0 V c).leavesExact 1 t = owns (c : Thread nD τ) (st0_1 t) fullShare (wgt0 V c t) := by
  unfold Dat.leavesExact; rw [show cfg0.idle 1 (grid0.coords t) = false from rfl, after0_1]
theorem leaves0_2 (c : Dev nD) (t : Fin cfg0.N) : (dat0 V c).leavesExact 2 t = owns (c : Thread nD τ) (st0_2 t) fullShare (winv0 V c t) := by
  unfold Dat.leavesExact; rw [show cfg0.idle 2 (grid0.coords t) = false from rfl, after0_2]
theorem leaves0_3 (c : Dev nD) (t : Fin cfg0.N) : (dat0 V c).leavesExact 3 t = owns (c : Thread nD τ) (st0_3 t) fullShare (diag0 V c t) := by
  unfold Dat.leavesExact; rw [show cfg0.idle 3 (grid0.coords t) = false from rfl, after0_3]
/-- At a last step the output's buffer is handed back at the output block. -/
theorem leaves0_4_last (c : Dev nD) (t : Fin cfg0.N) (h3 : t.val % 4 = 3) :
    (dat0 V c).leavesExact 4 t = owns (c : Thread nD τ) (st0_4 t) fullShare (out0 V c t) := by
  unfold Dat.leavesExact; rw [out0_live t h3, after0_4]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 1600000 in
/-- The body at any point: the operands' buffers hold their blocks; the point's residue mod 4 says which
    step shape it is; the invariant hands the step the scratch at the accumulator of the point before (at
    anything, at a first step) and takes it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ, Phi0_castSucc]
  rw [leaves0_0, leaves0_1, leaves0_2, leaves0_3]
  by_cases h3 : t.val % 4 = 3
  · have h0 : ¬t.val % 4 = 0 := by omega
    have hz : t.val ≠ 0 := by omega
    rw [leaves0_4_last V c t h3, Phi0_pos V c _ _ hz]
    unfold out0; rw [acc0_next V c t h0]
    iintro ⟨⟨HS, HR⟩, Ho, ⟨%d0, H0⟩, ⟨%d1, H1⟩, ⟨%d2, H2⟩, ⟨%d3, H3⟩, ⟨%d4, H4⟩⟩
    iapply (step0_last c (grid0.coords t) _ _ _ _ _ _ _ _ _ _ _ _ (fun h => h0 ((reset0_iff t).mp h)) ((final0_iff t).mpr h3)
      (feat0 V c t) (wgt0 V c t) (winv0 V c t) (diag0 V c t) ((dat0 V c).before 4 t d4)
      (acc0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (out0_idle t h3) (out0_noflush t h3)]
    by_cases h0 : t.val % 4 = 0
    · rw [acc0_first V c t h0]
      iintro ⟨HΦ, Ho, ⟨%d0, H0⟩, ⟨%d1, H1⟩, ⟨%d2, H2⟩, ⟨%d3, H3⟩, ⟨%d4, H4⟩⟩
      ihave HΦ' := (Phi0_any V c _ _) $$ HΦ
      icases HΦ' with ⟨⟨%ds, HS⟩, HR⟩
      iapply (step0_first c (grid0.coords t) _ _ _ _ _ _ _ _ _ _ _ _ ((reset0_iff t).mpr h0) (fun h => h3 ((final0_iff t).mp h))
        (feat0 V c t) (wgt0 V c t) (winv0 V c t) (diag0 V c t) ((dat0 V c).before 4 t d4) ds Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4
    · have hz : t.val ≠ 0 := fun e => h0 (by rw [e])
      rw [acc0_next V c t h0, Phi0_pos V c _ _ hz]
      iintro ⟨⟨HS, HR⟩, Ho, ⟨%d0, H0⟩, ⟨%d1, H1⟩, ⟨%d2, H2⟩, ⟨%d3, H3⟩, ⟨%d4, H4⟩⟩
      iapply (step0_mid c (grid0.coords t) _ _ _ _ _ _ _ _ _ _ _ _ (fun h => h0 ((reset0_iff t).mp h)) (fun h => h3 ((final0_iff t).mp h))
        (feat0 V c t) (wgt0 V c t) (winv0 V c t) (diag0 V c t) ((dat0 V c).before 4 t d4)
        (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second kernel's region: what its buffers hold, point by point.

  The grid again has 128 points t = 4·i + k. At point t the kernel is handed
    wav_t = rows block i, columns block k of wavelets          (512 × 4096)
    y_t   = rows [4096k, 4096k+4096) of the first region's result  (4096 × 32)
  and keeps an accumulator in its own scratch buffer: after point t it holds
    acc t = (if k = 0 then 0 else acc (t-1)) + wav_t · y_t,
  and at k = 3 the output block i is written as a copy of acc t.
  As for the first region: the accumulator `acc1` by recursion on the point, the invariant "the
  scratch holds `acc1` of the point before", and the body's obligation from the three step shapes.
-/
import proofs.«148808_j42442866819263_1_alg».proof.Proof.Gen.KernelIdeal.Launch
import proofs.«148808_j42442866819263_1_alg».proof.Proof.Gen.KernelIdeal.Skeleton
import proofs.«148808_j42442866819263_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import proofs.«148808_j42442866819263_1_alg».proof.Proof.Steps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The schedule -/

theorem reset1_iff : ∀ t : Fin cfg1.N, reset1 (grid1.coords t) ↔ t.val % 4 = 0 :=
  (by decide +kernel : ∀ t : Fin grid1.N, reset1 (grid1.coords t) ↔ t.val % 4 = 0)
theorem final1_iff : ∀ t : Fin cfg1.N, final1 (grid1.coords t) ↔ t.val % 4 = 3 :=
  (by decide +kernel : ∀ t : Fin grid1.N, final1 (grid1.coords t) ↔ t.val % 4 = 3)
/-- Away from k = 3 the output window is idle -/
theorem out1_idle : ∀ t : Fin cfg1.N, ¬t.val % 4 = 3 → cfg1.idle 2 (grid1.coords t) = true := by decide +kernel
/-- and is not written back; -/
theorem out1_noflush (t : Fin cfg1.N) (h : ¬t.val % 4 = 3) : (cfg1.win 2).flush t = false :=
  Bool.eq_false_iff.mpr fun hf => h ((flush1_2 t).mp hf)
/-- at k = 3 it is live. -/
theorem out1_live : ∀ t : Fin cfg1.N, t.val % 4 = 3 → cfg1.idle 2 (grid1.coords t) = false := by decide +kernel

/-! ## The operand blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wav1 (c : Dev nD) (t : Fin cfg1.N) : Vec F S512x4096 .f32 := iblk1 V c 0 t
abbrev y1 (c : Dev nD) (t : Fin cfg1.N) : Vec F S4096x32 .f32 := iblk1 V c 1 t

/-! ## The accumulator -/

/-- What the scratch buffer holds after point `n`. -/
def acc1 (c : Dev nD) : (n : ℕ) → n < cfg1.N → Vec F S512x32 .f32
  | 0, h => k1_pay2 (wav1 V c ⟨0, h⟩) (y1 V c ⟨0, h⟩) k1_pay1
  | n + 1, h => k1_pay2 (wav1 V c ⟨n + 1, h⟩) (y1 V c ⟨n + 1, h⟩)
      (if (n + 1) % 4 = 0 then k1_pay1 else acc1 c n (Nat.lt_of_succ_lt h))

theorem acc1_first (c : Dev nD) (t : Fin cfg1.N) (h0 : t.val % 4 = 0) :
    acc1 V c t.val t.isLt = k1_pay2 (wav1 V c t) (y1 V c t) k1_pay1 := by
  obtain ⟨n, hn⟩ := t
  cases n with
  | zero => rfl
  | succ n => simp only [acc1, if_pos h0]
theorem acc1_next (c : Dev nD) (t : Fin cfg1.N) (h0 : ¬t.val % 4 = 0) :
    acc1 V c t.val t.isLt = k1_pay2 (wav1 V c t) (y1 V c t)
      (acc1 V c (t.val - 1) (Nat.lt_of_le_of_lt (Nat.sub_le _ _) t.isLt)) := by
  obtain ⟨n, hn⟩ := t
  cases n with
  | zero => exact absurd (Nat.zero_mod _) h0
  | succ n => simp only [acc1, if_neg h0]; rfl

/-! ## The invariant -/

abbrev scr1 : Memref sig .tc .vmem S512x32 .f32 := Memref.whole cc1_scratch0
abbrev rest1 (c : Dev nD) : sProp 𝕄 :=
  Pipeline.scopedRestBut (Ix := Unit) (Name := ℕ) (U := UR sig nD τ) (Lvl := ℕ) (Val := Elt F) spec1 c [cc1_scratch0]

theorem scoped1_split (c : Dev nD) :
    (Pipeline.scopedRest (Ix := Unit) (Name := ℕ) (U := UR sig nD τ) (Lvl := ℕ) (Val := Elt F) spec1 c : sProp 𝕄)
      = iprop((∃ d, owns (c : Thread nD τ) scr1 fullShare d) ∗ rest1 c) := by
  rw [Pipeline.scopedRest_split_of_list spec1 c [cc1_scratch0] (by decide) (by decide)]
  simp only [bigSepL_singleton, scr1, owns_whole]
  rfl

def Phi1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scr1 fullShare (acc1 V c n hn) ∗ rest1 c)

theorem Phi1_zero (c : Dev nD) (h : 0 ≤ cfg1.N) :
    Phi1 V c 0 h = (Pipeline.scopedRest (Ix := Unit) (Name := ℕ) (U := UR sig nD τ) (Lvl := ℕ) (Val := Elt F) spec1 c : sProp 𝕄) := rfl
theorem Phi1_succ (c : Dev nD) (n : ℕ) (hn : n < cfg1.N) :
    Phi1 V c (n + 1) hn = iprop(owns (c : Thread nD τ) scr1 fullShare (acc1 V c n hn) ∗ rest1 c) := rfl
theorem Phi1_pos (c : Dev nD) (n : ℕ) (h : n ≤ cfg1.N) (hz : n ≠ 0) :
    Phi1 V c n h = iprop(owns (c : Thread nD τ) scr1 fullShare (acc1 V c (n - 1) (by omega)) ∗ rest1 c) := by
  cases n with
  | zero => exact absurd rfl hz
  | succ n => rfl
theorem Phi1_any (c : Dev nD) (n : ℕ) (h : n ≤ cfg1.N) :
    Phi1 V c n h ⊢ iprop((∃ d, owns (c : Thread nD τ) scr1 fullShare d) ∗ rest1 c) := by
  cases n with
  | zero => rw [Phi1_zero, scoped1_split]
  | succ n =>
    rw [Phi1_succ]
    iintro ⟨HS, HR⟩
    isplitl [HS]; · iexists _; iexact HS
    iexact HR

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem leaves1_0 (c : Dev nD) (t : Fin cfg1.N) : (dat1 V c).leavesExact 0 t = owns (c : Thread nD τ) (st1_0 t) fullShare (wav1 V c t) := by
  unfold Dat.leavesExact; rw [show cfg1.idle 0 (grid1.coords t) = false from rfl, after1_0]
theorem leaves1_1 (c : Dev nD) (t : Fin cfg1.N) : (dat1 V c).leavesExact 1 t = owns (c : Thread nD τ) (st1_1 t) fullShare (y1 V c t) := by
  unfold Dat.leavesExact; rw [show cfg1.idle 1 (grid1.coords t) = false from rfl, after1_1]
theorem leaves1_2_last (c : Dev nD) (t : Fin cfg1.N) (h3 : t.val % 4 = 3) :
    (dat1 V c).leavesExact 2 t = owns (c : Thread nD τ) (st1_2 t) fullShare (acc1 V c t.val t.isLt) := by
  unfold Dat.leavesExact; rw [out1_live t h3, after1_2]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 1600000 in
/-- The body at any point, by the point's residue mod 4. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ, Phi1_castSucc]
  rw [leaves1_0, leaves1_1]
  by_cases h3 : t.val % 4 = 3
  · have h0 : ¬t.val % 4 = 0 := by omega
    have hz : t.val ≠ 0 := by omega
    rw [leaves1_2_last V c t h3, Phi1_pos V c _ _ hz, acc1_next V c t h0]
    iintro ⟨⟨HS, HR⟩, Ho, ⟨%d0, H0⟩, ⟨%d1, H1⟩, ⟨%d2, H2⟩⟩
    iapply (step1_last c (grid1.coords t) _ _ _ _ _ _ _ _ (fun h => h0 ((reset1_iff t).mp h)) ((final1_iff t).mpr h3)
      (wav1 V c t) (y1 V c t) ((dat1 V c).before 2 t d2)
      (acc1 V c (t.val - 1) (Nat.lt_of_le_of_lt (Nat.sub_le _ _) t.isLt)) Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · rw [Dat.leavesExact_idle (dat1 V c) 2 t (out1_idle t h3) (out1_noflush t h3)]
    by_cases h0 : t.val % 4 = 0
    · rw [acc1_first V c t h0]
      iintro ⟨HΦ, Ho, ⟨%d0, H0⟩, ⟨%d1, H1⟩, ⟨%d2, H2⟩⟩
      ihave HΦ' := (Phi1_any V c _ _) $$ HΦ
      icases HΦ' with ⟨⟨%ds, HS⟩, HR⟩
      iapply (step1_first c (grid1.coords t) _ _ _ _ _ _ _ _ ((reset1_iff t).mpr h0) (fun h => h3 ((final1_iff t).mp h))
        (wav1 V c t) (y1 V c t) ((dat1 V c).before 2 t d2) ds Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · have hz : t.val ≠ 0 := fun e => h0 (by rw [e])
      rw [acc1_next V c t h0, Phi1_pos V c _ _ hz]
      iintro ⟨⟨HS, HR⟩, Ho, ⟨%d0, H0⟩, ⟨%d1, H1⟩, ⟨%d2, H2⟩⟩
      iapply (step1_mid c (grid1.coords t) _ _ _ _ _ _ _ _ (fun h => h0 ((reset1_iff t).mp h)) (fun h => h3 ((final1_iff t).mp h))
        (wav1 V c t) (y1 V c t) ((dat1 V c).before 2 t d2)
        (acc1 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Launch.lean ====
/-
  The run of @main: a reshape of the diagonal into a column, the first kernel's region, the second's.

  Between two items every unscoped buffer of the core is held at known contents:
    at launch          the memory `m`;
    after the reshape  `m` with the column `main_v0` written;
    after region 0     that, with `main_v1` at what the first pipeline's write-backs leave;
    after region 1     that, with `main_v2` at what the second pipeline's write-backs leave.
  A region takes its windows' arrays out of those buffers at entry and puts them back at exit; its
  invariant is fed the scoped buffers it does not stage and returns them; the generator register and
  the buffers it has no window on pass it by. The run's post reads every unscoped buffer off the last
  contents: the five arguments are as launched, and the result is the second region's output array.
-/
import proofs.«148808_j42442866819263_1_alg».proof.Proof.Gen.KernelIdeal.Launch
import proofs.«148808_j42442866819263_1_alg».proof.Proof.Gen.KernelIdeal.Skeleton
import proofs.«148808_j42442866819263_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic
import Idealize.ShloMosaic.Lib.Pipeline.RegionsLoop
import Idealize.ShloMosaic.Lib.Pipeline.FrameSuffix
import proofs.«148808_j42442866819263_1_alg».proof.Proof.Gen.KernelIdeal.Regions
import proofs.«148808_j42442866819263_1_alg».proof.Proof.Region0
import proofs.«148808_j42442866819263_1_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wl (c : Dev nD) : Valuation τ sig (Elt F) := fun b => m (c, b)
/-- After the reshape: what the first region is entered from. -/
abbrev Wh (c : Dev nD) : Valuation τ sig (Elt F) := StableHlo.after hostOps0 (Wl m c)
abbrev Vh : (c : Dev nD) → (b : Ref sig .tc) → Buf (Elt F) ((c : Thread nD τ).loc b) := fun c b => Wh m c b
/-- After the first region: its arrays at what its write-backs leave, every other buffer as entered. -/
def Wy (c : Dev nD) : Valuation τ sig (Elt F) :=
  Pipeline.withArrays spec0 c (Wh m c) fun w => (dat0 (Vh m) c).arrAt w cfg0.N
abbrev Vy : (c : Dev nD) → (b : Ref sig .tc) → Buf (Elt F) ((c : Thread nD τ).loc b) := fun c b => Wy m c b
/-- After the second region. -/
def Wz (c : Dev nD) : Valuation τ sig (Elt F) :=
  Pipeline.withArrays spec1 c (Wy m c) fun w => (dat1 (Vy m) c).arrAt w cfg1.N
abbrev Vz : (c : Dev nD) → (b : Ref sig .tc) → Buf (Elt F) ((c : Thread nD τ).loc b) := fun c b => Wz m c b

theorem Wy_arr (c : Dev nD) (w : Fin cfg0.W) :
    Wy m c (Proc.devRef .tc (Pipeline.arrRef spec0 w)) = (dat0 (Vh m) c).arrAt w cfg0.N := by
  unfold Wy; exact Pipeline.withArrays_arr spec0 launch0.win.arr_inj c _ _ w
theorem Wy_of_ne (c : Dev nD) (b : Ref sig .tc) (hb : ∀ w, Pipeline.arrRef spec0 w ≠ b) :
    Wy m c (Proc.devRef .tc b) = Wh m c (Proc.devRef .tc b) := by
  unfold Wy; exact Pipeline.withArrays_of_ne spec0 c _ _ b hb
theorem Wz_arr (c : Dev nD) (w : Fin cfg1.W) :
    Wz m c (Proc.devRef .tc (Pipeline.arrRef spec1 w)) = (dat1 (Vy m) c).arrAt w cfg1.N := by
  unfold Wz; exact Pipeline.withArrays_arr spec1 launch1.win.arr_inj c _ _ w
theorem Wz_of_ne (c : Dev nD) (b : Ref sig .tc) (hb : ∀ w, Pipeline.arrRef spec1 w ≠ b) :
    Wz m c (Proc.devRef .tc b) = Wy m c (Proc.devRef .tc b) := by
  unfold Wz; exact Pipeline.withArrays_of_ne spec1 c _ _ b hb

theorem exit0_arr (c : Dev nD) (w : Fin cfg0.W) : (dat0 (Vh m) c).arrAt w cfg0.N = Vy m c (Pipeline.arrRef spec0 w) :=
  (Wy_arr m c w).symm
theorem exit0_rest (c : Dev nD) : ∀ b, b ∉ Finset.univ.image (Pipeline.arrRef spec0) → Vy m c b = Vh m c b :=
  fun b hb => Wy_of_ne m c b fun w e => hb (Finset.mem_image.mpr ⟨w, Finset.mem_univ _, e⟩)
theorem exit1_arr (c : Dev nD) (w : Fin cfg1.W) : (dat1 (Vy m) c).arrAt w cfg1.N = Vz m c (Pipeline.arrRef spec1 w) :=
  (Wz_arr m c w).symm
theorem exit1_rest (c : Dev nD) : ∀ b, b ∉ Finset.univ.image (Pipeline.arrRef spec1) → Vz m c b = Vy m c b :=
  fun b hb => Wz_of_ne m c b fun w e => hb (Finset.mem_image.mpr ⟨w, Finset.mem_univ _, e⟩)

/-! ## The arguments end as launched -/

/-- The reshape writes only the column `main_v0`. -/
theorem Wh_of (c : Dev nD) (r : Ref sig .tc) (h : r ∉ hostOps0_W) : Wh m c r = m ((c : Thread nD τ).loc r) :=
  StableHlo.after_of_writes_sub hostOps0 _ hostOps0_writes h

/-- features: an operand of the first region, bypassed by the second. -/
theorem Wz_arg0 (c : Dev nD) : Wz m c (Proc.devRef .tc main_arg0) = m ((c : Thread nD τ).loc main_arg0) :=
  calc Wz m c (Proc.devRef .tc main_arg0)
    _ = Wy m c (Proc.devRef .tc main_arg0) := Wz_of_ne m c main_arg0 (by decide)
    _ = Wh m c (Proc.devRef .tc main_arg0) := (Wy_arr m c 0).trans (((dat0 (Vh m) c).arrAt_in 0 rfl _).trans (A_eq0 (Vh m) c 0))
    _ = m ((c : Thread nD τ).loc main_arg0) := Wh_of m c main_arg0 (by decide)
/-- wavelets: bypassed by the first region, an operand of the second. -/
theorem Wz_arg1 (c : Dev nD) : Wz m c (Proc.devRef .tc main_arg1) = m ((c : Thread nD τ).loc main_arg1) :=
  calc Wz m c (Proc.devRef .tc main_arg1)
    _ = Wy m c (Proc.devRef .tc main_arg1) := (Wz_arr m c 0).trans (((dat1 (Vy m) c).arrAt_in 0 rfl _).trans (A_eq1 (Vy m) c 0))
    _ = Wh m c (Proc.devRef .tc main_arg1) := Wy_of_ne m c main_arg1 (by decide)
    _ = m ((c : Thread nD τ).loc main_arg1) := Wh_of m c main_arg1 (by decide)
/-- wavelets_inv: an operand of the first region. -/
theorem Wz_arg2 (c : Dev nD) : Wz m c (Proc.devRef .tc main_arg2) = m ((c : Thread nD τ).loc main_arg2) :=
  calc Wz m c (Proc.devRef .tc main_arg2)
    _ = Wy m c (Proc.devRef .tc main_arg2) := Wz_of_ne m c main_arg2 (by decide)
    _ = Wh m c (Proc.devRef .tc main_arg2) := (Wy_arr m c 2).trans (((dat0 (Vh m) c).arrAt_in 2 rfl _).trans (A_eq0 (Vh m) c 2))
    _ = m ((c : Thread nD τ).loc main_arg2) := Wh_of m c main_arg2 (by decide)
/-- diag_filter: read by the reshape only. -/
theorem Wz_arg3 (c : Dev nD) : Wz m c (Proc.devRef .tc main_arg3) = m ((c : Thread nD τ).loc main_arg3) :=
  calc Wz m c (Proc.devRef .tc main_arg3)
    _ = Wy m c (Proc.devRef .tc main_arg3) := Wz_of_ne m c main_arg3 (by decide)
    _ = Wh m c (Proc.devRef .tc main_arg3) := Wy_of_ne m c main_arg3 (by decide)
    _ = m ((c : Thread nD τ).loc main_arg3) := Wh_of m c main_arg3 (by decide)
/-- weight_matrix: an operand of the first region. -/
theorem Wz_arg4 (c : Dev nD) : Wz m c (Proc.devRef .tc main_arg4) = m ((c : Thread nD τ).loc main_arg4) :=
  calc Wz m c (Proc.devRef .tc main_arg4)
    _ = Wy m c (Proc.devRef .tc main_arg4) := Wz_of_ne m c main_arg4 (by decide)
    _ = Wh m c (Proc.devRef .tc main_arg4) := (Wy_arr m c 1).trans (((dat0 (Vh m) c).arrAt_in 1 rfl _).trans (A_eq0 (Vh m) c 1))
    _ = m ((c : Thread nD τ).loc main_arg4) := Wh_of m c main_arg4 (by decide)

/-! ## The proof data of both pipelines, and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vh m) c
  | ⟨1, _⟩ => fun c => dat1 (Vy m) c

/-- No core owes another anything. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- The reshape as a segment over the unscoped buffers from the launch contents. -/
abbrev hseg : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Wl m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without what the core owes: every unscoped buffer at the last contents, the generator
    register at some state. -/
abbrev Tend (c : Dev nD) : sProp 𝕄 := iprop(StableHlo.held (c : Thread nD τ) (Pipeline.ucRefs τ sig) (Wz m c) ∗ ∃ r, prngReg c r)

theorem N0_pos : cfg0.N ≠ 0 := by have : cfg0.N = 128 := N_0; omega
theorem N1_pos : cfg1.N ≠ 0 := by have : cfg1.N = 128 := N_1; omega

/-! ## The regions as segments -/

set_option backward.isDefEq.respectTransparency.types false in
/-- The first region: entered from the contents after the reshape, left at `Wy`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (Wy m c) ∗ R c)
  X _ := iprop(emp)
  Y _ := iprop(emp)
  Z c := iprop(Pipeline.unscopedRest (Ix := Unit) (Name := ℕ) (U := UR sig nD τ) (Lvl := ℕ) spec0 c (Vh m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Phi0 (Vh m) c 0 (Nat.zero_le _) from rfl, Phi0_zero]
    iintro ⟨-, -, Hr⟩
    iexact Hr
  hout c := by
    rw [Pipeline.ownSems0_none, show (pdats m 0 c).Φ (Fin.last _) = Phi0 (Vh m) c cfg0.N (le_refl _) from rfl,
      Phi0_pos (Vh m) c _ _ N0_pos]
    have hs := scoped0_split (F := F) c
    iintro ⟨HS, HR⟩
    isplitr; · iempintro
    isplitr; · iempintro
    iapply (Entails.of_eq hs.symm)
    isplitl [HS]; · iexists _; iexact HS
    iexact HR
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (Vy m c) ((pdats m 0 c).arrAt · cfg0.N) (exit0_arr m c) (exit0_rest m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- The second region: entered from `Wy`, left at `Wz`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Vy m) c).loose
  hwaits := Pipeline.hwaits_of_owed_zero _ _ _ _ L lv 1 fun _ _ => rfl
  pre c := iprop(StableHlo.held (c : Thread nD τ) (Pipeline.ucRefs τ sig) (Wy m c) ∗ R c)
  post c := iprop(Tend m c ∗ ∃ W, owes (c : Thread nD τ) (0 : CellTallies nD τ sig Unit) W)
  X _ := iprop(emp)
  Y _ := iprop(emp)
  Z c := iprop(Pipeline.unscopedRest (Ix := Unit) (Name := ℕ) (U := UR sig nD τ) (Lvl := ℕ) spec1 c (Vy m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (Vy m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Phi1 (Vy m) c 0 (Nat.zero_le _) from rfl, Phi1_zero]
    iintro ⟨-, -, Hr⟩
    iexact Hr
  hout c := by
    rw [Pipeline.ownSems0_none, show (pdats m 1 c).Φ (Fin.last _) = Phi1 (Vy m) c cfg1.N (le_refl _) from rfl,
      Phi1_pos (Vy m) c _ _ N1_pos]
    have hs := scoped1_split (F := F) c
    iintro ⟨HS, HR⟩
    isplitr; · iempintro
    isplitr; · iempintro
    iapply (Entails.of_eq hs.symm)
    isplitl [HS]; · iexists _; iexact HS
    iexact HR
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vy m c) (Vz m c) ((pdats m 1 c).arrAt · cfg1.N) (exit1_arr m c) (exit1_rest m c)
    rw [Pipeline.unscopedBufs_held] at hjoin
    iintro ⟨Ha, HO, -, Hrest, Hp⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## The run -/

/-- @main's three items, in order. -/
abbrev segs : List (Pipeline.Seg (pcfgs (F := F)) adm (pdats m) () defs₀ Variants.none L lv) :=
  [ .host (hseg m), .region (reg0 m), .region (reg1 m) ]

/-- @main is the run of those segments. -/
theorem main_run (c : Dev nD) : main (F := F) c = Pipeline.Seg.run (segs m) := (main_chain c).trans (by chain_rfl)

set_option backward.isDefEq.respectTransparency.types false in
/-- Every weakly fair execution of @main from memory `m` with zero counters terminates, and in every final
    memory each unscoped buffer of each core holds the last boundary's contents `Wz`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = Wz m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ R c))
    (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wz m c b)
    (hfin := fun c s' => by
      iintro ⟨⟨Hh, -⟩, HSI⟩
      unfold StableHlo.held
      imodintro
      iapply (pointsTo_read_all (Pipeline.ucRefs τ sig) (fun b => (((c : Thread nD τ)).1, b)) (Wz m c) s')
      isplitl [Hh] <;> iassumption)
    (hQ := fun s h => h)

/-! ## What the run says of the arguments and of the result -/

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Wz_arg0 m c),
     (h c _ (mem_uc main_arg1 (by decide))).trans (Wz_arg1 m c),
     (h c _ (mem_uc main_arg2 (by decide))).trans (Wz_arg2 m c),
     (h c _ (mem_uc main_arg3 (by decide))).trans (Wz_arg3 m c),
     (h c _ (mem_uc main_arg4 (by decide))).trans (Wz_arg4 m c)⟩) (run_main m ρ)

/-- The result array ends at what the second pipeline's write-backs leave, and the arguments as launched. -/
theorem run_result : θ_run defs (onTc (τ := τ) (main (F := F))) ⟨m, fun _ => 0, ρ⟩ (fun r => ∀ c : Dev nD,
      r.2.mem ((c.tc : Thread nD τ).loc main_v2) = (dat1 (Vy m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v2 (by decide))).trans (Wz_arr m c 2),
     (h c _ (mem_uc main_arg0 (by decide))).trans (Wz_arg0 m c),
     (h c _ (mem_uc main_arg1 (by decide))).trans (Wz_arg1 m c),
     (h c _ (mem_uc main_arg2 (by decide))).trans (Wz_arg2 m c),
     (h c _ (mem_uc main_arg3 (by decide))).trans (Wz_arg3 m c),
     (h c _ (mem_uc main_arg4 (by decide))).trans (Wz_arg4 m c)⟩) (run_main m ρ)

end Cert.KernelIdeal.Hand

end
-- ==== Proof.Payloads.lean ====
/-
  The kernels' arithmetic at an index, over the extended reals.

  At the ideal instance a change of float format is the identity and a matrix product into a zero
  accumulator is the plain sum over the contracted axis. So, at row `p` and column `q` of a 512 × 32 block:
    the reset value                      is 0;
    the first kernel's accumulation      is  acc p q + ∑ s', winv p s' · (∑ f, feat s' f · W f q);
    its output                           is  acc p q · diag p   (the diagonal block is a column);
    the second kernel's accumulation     is  acc p q + ∑ s', wav p s' · y s' q.
-/
import proofs.«148808_j42442866819263_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## Where the two block products read their operands

Both products contract the left operand's second axis with the right operand's first. At the output index
`j` and the contraction index `k` the left operand is read at (row of `j`, `k`) and the right one at
(`k`, column of `j`). Each of the four coordinates is stated at its literal axis. -/

/-- `feat_blk · W`: the left operand's row is the output's row. -/
private theorem featW_lhs_row (j : S4096x32.Idx) (k : dot_S4096x32_S32x32_S4096x32_1_0_0_1_n_n.contr.Idx) :
    (dot_S4096x32_S32x32_S4096x32_1_0_0_1_n_n.lhsIdx j k 0).val = (j 0).val := by
  unfold DotDims.lhsIdx
  rw [dif_neg (show ¬(0 : Fin S4096x32.rank) ∈ dot_S4096x32_S32x32_S4096x32_1_0_0_1_n_n.lhsBatch by decide),
    dif_pos (show (0 : Fin S4096x32.rank) ∈ dot_S4096x32_S32x32_S4096x32_1_0_0_1_n_n.lhsNonContracting by decide)]
  rfl

/-- `feat_blk · W`: the left operand's column is the contraction index. -/
private theorem featW_lhs_col (j : S4096x32.Idx) (k : dot_S4096x32_S32x32_S4096x32_1_0_0_1_n_n.contr.Idx) :
    (dot_S4096x32_S32x32_S4096x32_1_0_0_1_n_n.lhsIdx j k 1).val = (k ⟨0, by decide⟩).val :=
  dot_S4096x32_S32x32_S4096x32_1_0_0_1_n_n.lhsIdx_val_of_single rfl j k

/-- `feat_blk · W`: the right operand's row is the contraction index. -/
private theorem featW_rhs_row (j : S4096x32.Idx) (k : dot_S4096x32_S32x32_S4096x32_1_0_0_1_n_n.contr.Idx) :
    (dot_S4096x32_S32x32_S4096x32_1_0_0_1_n_n.rhsIdx j k 0).val = (k ⟨0, by decide⟩).val :=
  dot_S4096x32_S32x32_S4096x32_1_0_0_1_n_n.rhsIdx_val_of_single rfl j k

/-- `feat_blk · W`: the right operand's column is the output's column. -/
private theorem featW_rhs_col (j : S4096x32.Idx) (k : dot_S4096x32_S32x32_S4096x32_1_0_0_1_n_n.contr.Idx) :
    (dot_S4096x32_S32x32_S4096x32_1_0_0_1_n_n.rhsIdx j k 1).val = (j 1).val := by
  unfold DotDims.rhsIdx
  rw [dif_neg (show ¬(1 : Fin S32x32.rank) ∈ dot_S4096x32_S32x32_S4096x32_1_0_0_1_n_n.rhsBatch by decide),
    dif_pos (show (1 : Fin S32x32.rank) ∈ dot_S4096x32_S32x32_S4096x32_1_0_0_1_n_n.rhsNonContracting by decide)]
  rfl

/-- The wide product (a 512 × 4096 block times a 4096 × 32 block): the left operand's row is the output's row. -/
private theorem wide_lhs_row (j : S512x32.Idx) (k : dot_S512x4096_S4096x32_S512x32_1_0_0_1_n_n.contr.Idx) :
    (dot_S512x4096_S4096x32_S512x32_1_0_0_1_n_n.lhsIdx j k 0).val = (j 0).val := by
  unfold DotDims.lhsIdx
  rw [dif_neg (show ¬(0 : Fin S512x4096.rank) ∈ dot_S512x4096_S4096x32_S512x32_1_0_0_1_n_n.lhsBatch by decide),
    dif_pos (show (0 : Fin S512x4096.rank) ∈ dot_S512x4096_S4096x32_S512x32_1_0_0_1_n_n.lhsNonContracting by decide)]
  rfl

/-- The wide product: the left operand's column is the contraction index. -/
private theorem wide_lhs_col (j : S512x32.Idx) (k : dot_S512x4096_S4096x32_S512x32_1_0_0_1_n_n.contr.Idx) :
    (dot_S512x4096_S4096x32_S512x32_1_0_0_1_n_n.lhsIdx j k 1).val = (k ⟨0, by decide⟩).val :=
  dot_S512x4096_S4096x32_S512x32_1_0_0_1_n_n.lhsIdx_val_of_single rfl j k

/-- The wide product: the right operand's row is the contraction index. -/
private theorem wide_rhs_row (j : S512x32.Idx) (k : dot_S512x4096_S4096x32_S512x32_1_0_0_1_n_n.contr.Idx) :
    (dot_S512x4096_S4096x32_S512x32_1_0_0_1_n_n.rhsIdx j k 0).val = (k ⟨0, by decide⟩).val :=
  dot_S512x4096_S4096x32_S512x32_1_0_0_1_n_n.rhsIdx_val_of_single rfl j k

/-- The wide product: the right operand's column is the output's column. -/
private theorem wide_rhs_col (j : S512x32.Idx) (k : dot_S512x4096_S4096x32_S512x32_1_0_0_1_n_n.contr.Idx) :
    (dot_S512x4096_S4096x32_S512x32_1_0_0_1_n_n.rhsIdx j k 1).val = (j 1).val := by
  unfold DotDims.rhsIdx
  rw [dif_neg (show ¬(1 : Fin S4096x32.rank) ∈ dot_S512x4096_S4096x32_S512x32_1_0_0_1_n_n.rhsBatch by decide),
    dif_pos (show (1 : Fin S4096x32.rank) ∈ dot_S512x4096_S4096x32_S512x32_1_0_0_1_n_n.rhsNonContracting by decide)]
  rfl

/-! ## The two block products at an index

Into a zero accumulator a product is the plain sum over the contracted axis; the one-axis contraction index is
traded for its coordinate, and the operands' indices are then the coordinate pairs above. -/

/-- `feat_blk · W` at row `s`, column `q`: the sum over the 32 feature columns. -/
private theorem featW_at (a : FVec Ideal S4096x32 .bf16) (b : FVec Ideal S32x32 .bf16) (s : Fin 4096) (q : Fin 32) :
    matmul (F := Ideal) dot_S4096x32_S32x32_S4096x32_1_0_0_1_n_n none a b (constant (F := Ideal) S4096x32 .f32 0x00000000#32) (ix2 s q)
      = ∑ f : Fin 32, a (ix2 s f) * b (ix2 f q) := by
  simp only [matmul]
  rw [Ideal.matmul_constant_zero_apply, ← Equiv.sum_comp (contrEquiv1 dot_S4096x32_S32x32_S4096x32_1_0_0_1_n_n 32 rfl rfl).symm]
  refine Finset.sum_congr rfl fun f _ => ?_
  have hf := contrEquiv1_symm_val dot_S4096x32_S32x32_S4096x32_1_0_0_1_n_n 32 rfl rfl f
  have el : dot_S4096x32_S32x32_S4096x32_1_0_0_1_n_n.lhsIdx (ix2 s q) ((contrEquiv1 dot_S4096x32_S32x32_S4096x32_1_0_0_1_n_n 32 rfl rfl).symm f) = ix2 s f :=
    funext fun ax => Fin.ext (by
      match ax with
      | ⟨0, _⟩ => exact featW_lhs_row _ _
      | ⟨1, _⟩ => exact (featW_lhs_col _ _).trans hf)
  have er : dot_S4096x32_S32x32_S4096x32_1_0_0_1_n_n.rhsIdx (ix2 s q) ((contrEquiv1 dot_S4096x32_S32x32_S4096x32_1_0_0_1_n_n 32 rfl rfl).symm f) = ix2 f q :=
    funext fun ax => Fin.ext (by
      match ax with
      | ⟨0, _⟩ => exact (featW_rhs_row _ _).trans hf
      | ⟨1, _⟩ => exact featW_rhs_col _ _)
  rw [el, er]

/-- The wide product at row `p`, column `q`: the sum over the block's 4096 columns. -/
private theorem wide_at (a : FVec Ideal S512x4096 .bf16) (b : FVec Ideal S4096x32 .bf16) (p : Fin 512) (q : Fin 32) :
    matmul (F := Ideal) dot_S512x4096_S4096x32_S512x32_1_0_0_1_n_n none a b (constant (F := Ideal) S512x32 .f32 0x00000000#32) (ix2 p q)
      = ∑ s : Fin 4096, a (ix2 p s) * b (ix2 s q) := by
  simp only [matmul]
  rw [Ideal.matmul_constant_zero_apply, ← Equiv.sum_comp (contrEquiv1 dot_S512x4096_S4096x32_S512x32_1_0_0_1_n_n 4096 rfl rfl).symm]
  refine Finset.sum_congr rfl fun s _ => ?_
  have hs := contrEquiv1_symm_val dot_S512x4096_S4096x32_S512x32_1_0_0_1_n_n 4096 rfl rfl s
  have el : dot_S512x4096_S4096x32_S512x32_1_0_0_1_n_n.lhsIdx (ix2 p q) ((contrEquiv1 dot_S512x4096_S4096x32_S512x32_1_0_0_1_n_n 4096 rfl rfl).symm s) = ix2 p s :=
    funext fun ax => Fin.ext (by
      match ax with
      | ⟨0, _⟩ => exact wide_lhs_row _ _
      | ⟨1, _⟩ => exact (wide_lhs_col _ _).trans hs)
  have er : dot_S512x4096_S4096x32_S512x32_1_0_0_1_n_n.rhsIdx (ix2 p q) ((contrEquiv1 dot_S512x4096_S4096x32_S512x32_1_0_0_1_n_n 4096 rfl rfl).symm s) = ix2 s q :=
    funext fun ax => Fin.ext (by
      match ax with
      | ⟨0, _⟩ => exact (wide_rhs_row _ _).trans hs
      | ⟨1, _⟩ => exact wide_rhs_col _ _)
  rw [el, er]

/-! ## The payloads -/

/-- The first kernel's reset value is zero everywhere. -/
theorem pay1_0 (i : S512x32.Idx) : (k0_pay1 (F := Ideal)) i = 0 := by
  unfold k0_pay1
  simp only [shapeCast_self, broadcast_apply]
  exact Ideal.ofBits_zero_f32

/-- The second kernel's reset value is zero everywhere. -/
theorem pay1_1 (i : S512x32.Idx) : (k1_pay1 (F := Ideal)) i = 0 := by
  unfold k1_pay1
  simp only [shapeCast_self, broadcast_apply]
  exact Ideal.ofBits_zero_f32

/-- One accumulation of the first kernel: the old accumulator plus the block product
    `winv_blk · (feat_blk · W)`, at row `p`, column `q`. -/
theorem pay2_0 (x0 : Vec Ideal S4096x32 .f32) (x1 : Vec Ideal S32x32 .f32) (x2 : Vec Ideal S512x4096 .f32)
    (xs : Vec Ideal S512x32 .f32) (p : Fin 512) (q : Fin 32) :
    k0_pay2 (F := Ideal) x0 x1 x2 xs (ix2 p q)
      = xs (ix2 p q) + ∑ s' : Fin 4096, x2 (ix2 p s') * ∑ f : Fin 32, x0 (ix2 s' f) * x1 (ix2 f q) := by
  unfold k0_pay2
  simp only [shapeCast_self, addf_apply]
  rw [wide_at]
  refine congrArg (xs (ix2 p q) + ·) (Finset.sum_congr rfl fun s' _ => ?_)
  rw [truncf_apply, truncf_apply, featW_at]
  refine congrArg (x2 (ix2 p s') * ·) (Finset.sum_congr rfl fun f _ => ?_)
  rw [truncf_apply, truncf_apply]

/-- The first kernel's output block: the accumulator with row `p` scaled by the diagonal block's entry `p`. -/
theorem pay3_0 (a : Vec Ideal S512x32 .f32) (d : Vec Ideal S512x1 .f32) (p : Fin 512) (q : Fin 32) :
    k0_pay3 (F := Ideal) a d (ix2 p q) = a (ix2 p q) * d (ix2 p 0) := by
  unfold k0_pay3
  simp only [shapeCast_self, mulf_apply]
  refine congrArg (a (ix2 p q) * ·) ?_
  refine broadcastTo_apply d _ (ix2 p q) (ix2 p 0) fun ax => ?_
  match ax with
  | ⟨0, _⟩ => rfl
  | ⟨1, _⟩ => rfl

/-- One accumulation of the second kernel: the old accumulator plus the block product `wav_blk · y_blk`. -/
theorem pay2_1 (x0 : Vec Ideal S512x4096 .f32) (x1 : Vec Ideal S4096x32 .f32) (xs : Vec Ideal S512x32 .f32)
    (p : Fin 512) (q : Fin 32) :
    k1_pay2 (F := Ideal) x0 x1 xs (ix2 p q) = xs (ix2 p q) + ∑ s' : Fin 4096, x0 (ix2 p s') * x1 (ix2 s' q) := by
  unfold k1_pay2
  simp only [shapeCast_self, addf_apply]
  rw [wide_at]
  refine congrArg (xs (ix2 p q) + ·) (Finset.sum_congr rfl fun s' _ => ?_)
  rw [truncf_apply, truncf_apply]

end Cert.KernelIdeal.Hand

end
-- ==== Proof.Spec.lean ====
/-
  What both programs compute, as one function of the five argument arrays.

  With N = 16384 and 32 features,
      x  = features · W                         x s j  = ∑ f, features s f · W f j
      y  = diag ⊙ (wavelets_inv · x)            y r j  = diag r · ∑ s, wavelets_inv r s · x s j
      out = wavelets · y                        out i j = ∑ r, wavelets i r · y r j
  over the extended reals. The reference computes exactly this, stage by stage. The kernel computes the
  two long sums in four pieces of 4096 terms each, added one after the other to an accumulator that
  starts at zero, and multiplies by the diagonal on the other side; `sum_four_blocks` and the
  commutativity of the product are all that separates the two.
-/
import Idealize.ShloMosaic.Lib.ValueIdx
import Idealize.ShloMosaic.PureOps.Ideal
import Mathlib.Algebra.BigOperators.Fin
import Mathlib.Data.EReal.Operations

noncomputable section

namespace Cert.Spec

open Idealize.ShloMosaic Idealize.ShloMosaic.ValueIdx

/-- A matrix of extended reals with literal extents. -/
abbrev Mat (a b : Nat) : Type := FVec Ideal (⟨2, ![a, b]⟩ : Shape) .f32
/-- A vector of extended reals with a literal extent. -/
abbrev Vct (a : Nat) : Type := FVec Ideal (⟨1, ![a]⟩ : Shape) .f32

/-- `x = features · W`, at row `s` and column `j`. -/
def xS (feat : Mat 16384 32) (W : Mat 32 32) (s : Fin 16384) (j : Fin 32) : EReal :=
  ∑ f : Fin 32, feat (ix2 s f) * W (ix2 f j)

/-- `wavelets_inv · x`, at row `r` and column `j`: the sum the first kernel accumulates. -/
def zS (feat : Mat 16384 32) (W : Mat 32 32) (winv : Mat 16384 16384) (r : Fin 16384) (j : Fin 32) : EReal :=
  ∑ s : Fin 16384, winv (ix2 r s) * xS feat W s j

/-- `y = diag ⊙ (wavelets_inv · x)`: row `r` scaled by the diagonal's entry. -/
def yS (feat : Mat 16384 32) (W : Mat 32 32) (winv : Mat 16384 16384) (diag : Vct 16384) (r : Fin 16384) (j : Fin 32) : EReal :=
  diag (ix1 r) * zS feat W winv r j

/-- The result: `wavelets · y`, index by index. Arguments in the programs' order. -/
def G (feat : Mat 16384 32) (wav winv : Mat 16384 16384) (diag : Vct 16384) (W : Mat 32 32) : Mat 16384 32 :=
  fun i => ∑ r : Fin 16384, wav (ix2 (i 0) r) * yS feat W winv diag r (i 1)

/-- Position `s'` of block `k` among four blocks of 4096. -/
abbrev at4 (k : Fin 4) (s' : Fin 4096) : Fin 16384 := ⟨4096 * k.val + s'.val, by have := k.isLt; have := s'.isLt; omega⟩

/-- A sum of 16384 terms is its four blocks of 4096 added, in order, to zero: addition of extended
    reals is associative and commutative with zero its unit, so no finiteness is asked. -/
theorem sum_four_blocks (g : Fin 16384 → EReal) :
    ((((0 + ∑ s' : Fin 4096, g (at4 0 s')) + ∑ s' : Fin 4096, g (at4 1 s')) + ∑ s' : Fin 4096, g (at4 2 s'))
      + ∑ s' : Fin 4096, g (at4 3 s')) = ∑ s : Fin 16384, g s := by
  have e : (∑ s : Fin 16384, g s) = ∑ k : Fin 4, ∑ s' : Fin 4096, g (at4 k s') := by
    rw [← Finset.sum_product', Finset.univ_product_univ]
    refine (Fintype.sum_equiv (finProdFinEquiv (m := 4) (n := 4096)) (fun p => g (at4 p.1 p.2)) g fun p => ?_).symm
    congr 1
    exact Fin.ext (by simp only [finProdFinEquiv_apply_val]; omega)
  rw [e, Fin.sum_univ_four, zero_add]

end Cert.Spec

end
-- ==== Proof.Value0.lean ====
/-
  The first region's output array, whole.

  Row block i of the output is written once, at the point t = 4·i + 3: the accumulator, which by then has
  taken the four partial products `winv_blk · (feat_blk · W)` of the row block (k = 0, 1, 2, 3, added in that
  order to zero), with each row scaled by the diagonal column's entry. The four blocks of 4096 terms make
  the sum over all 16384 columns of `wavelets_inv`, so the block is rows [512i, 512i + 512) of
  `(wavelets_inv · (features · W))` with row `r` times `diag r`; the 32 row blocks tile the array.
-/
import proofs.«148808_j42442866819263_1_alg».proof.Proof.Region0
import proofs.«148808_j42442866819263_1_alg».proof.Proof.Payloads
import proofs.«148808_j42442866819263_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered, over the extended reals
variable (V : (c : Dev nD) → (b : Ref sig .tc) → Buf (Elt Ideal) ((c : Thread nD τ).loc b))

/-- The operand arrays as the region finds them, and its output array after all write-backs, each at its
    literal type. -/
abbrev featA (c : Dev nD) : Vec Ideal S16384x32 .f32 := V c main_arg0
abbrev wgtA (c : Dev nD) : Vec Ideal S32x32 .f32 := V c main_arg4
abbrev winvA (c : Dev nD) : Vec Ideal S16384x16384 .f32 := V c main_arg2
abbrev diagA (c : Dev nD) : Vec Ideal S16384x1 .f32 := V c main_v0
abbrev zA (c : Dev nD) : Vec Ideal S16384x32 .f32 := (dat0 V c).arrAt 4 cfg0.N

/-! ## Where the blocks sit in their arrays -/

/-- The block index of each window at the point `t = 4·i + k`, decided once over the 128 points: the
    features' block moves with `k`, the weight matrix is one block, the `wavelets_inv` block is `(i, k)`,
    and the diagonal's and the output's blocks move with `i`. -/
theorem blockIdx0 : ∀ t : Fin cfg0.N,
    win0_0.index t (0 : Fin 2) = t.val % 4 ∧ win0_0.index t (1 : Fin 2) = 0
    ∧ win0_1.index t (0 : Fin 2) = 0 ∧ win0_1.index t (1 : Fin 2) = 0
    ∧ win0_2.index t (0 : Fin 2) = t.val / 4 ∧ win0_2.index t (1 : Fin 2) = t.val % 4
    ∧ win0_3.index t (0 : Fin 2) = t.val / 4 ∧ win0_3.index t (1 : Fin 2) = 0
    ∧ win0_4.index t (0 : Fin 2) = t.val / 4 ∧ win0_4.index t (1 : Fin 2) = 0 :=
  (by decide +kernel : ∀ t : Fin grid0.N, _)

/-- Row `p` of row block `b`, as a row of a whole array of 16384 rows. -/
abbrev rowAt0 (b : Fin 32) (p : Fin 512) : Fin 16384 :=
  ⟨512 * b.val + p.val, by have := b.isLt; have := p.isLt; omega⟩

/-- At step `k` the features' block is rows `[4096k, 4096k + 4096)` of the features. -/
theorem feat0_at (c : Dev nD) (t : Fin cfg0.N) (k : Fin 4) (hk : t.val % 4 = k.val) (s' : Fin 4096) (f : Fin 32) :
    feat0 V c t (ix2 s' f) = featA V c (ix2 (Cert.Spec.at4 k s') f) := by
  obtain ⟨e0, e1, -⟩ := blockIdx0 t
  show V c main_arg0 (((cfg0.win 0).blk t).view.emb (ix2 s' f)) = V c main_arg0 _
  refine congrArg (V c main_arg0) ?_
  funext a; apply Fin.ext
  match a with
  | ⟨0, _⟩ => show win0_0.index t (0 : Fin 2) * 4096 + 1 * s'.val = 4096 * k.val + s'.val; omega
  | ⟨1, _⟩ => show win0_0.index t (1 : Fin 2) * 32 + 1 * f.val = f.val; omega

/-- The weight matrix's block is the weight matrix. -/
theorem wgt0_at (c : Dev nD) (t : Fin cfg0.N) (f q : Fin 32) :
    wgt0 V c t (ix2 f q) = wgtA V c (ix2 f q) := by
  obtain ⟨-, -, e0, e1, -⟩ := blockIdx0 t
  show V c main_arg4 (((cfg0.win 1).blk t).view.emb (ix2 f q)) = V c main_arg4 _
  refine congrArg (V c main_arg4) ?_
  funext a; apply Fin.ext
  match a with
  | ⟨0, _⟩ => show win0_1.index t (0 : Fin 2) * 32 + 1 * f.val = f.val; omega
  | ⟨1, _⟩ => show win0_1.index t (1 : Fin 2) * 32 + 1 * q.val = q.val; omega

/-- At the point `4b + k` the `wavelets_inv` block is rows of row block `b`, columns `[4096k, 4096k + 4096)`. -/
theorem winv0_at (c : Dev nD) (t : Fin cfg0.N) (b : Fin 32) (k : Fin 4) (hb : t.val / 4 = b.val)
    (hk : t.val % 4 = k.val) (p : Fin 512) (s' : Fin 4096) :
    winv0 V c t (ix2 p s') = winvA V c (ix2 (rowAt0 b p) (Cert.Spec.at4 k s')) := by
  obtain ⟨-, -, -, -, e0, e1, -⟩ := blockIdx0 t
  show V c main_arg2 (((cfg0.win 2).blk t).view.emb (ix2 p s')) = V c main_arg2 _
  refine congrArg (V c main_arg2) ?_
  funext a; apply Fin.ext
  match a with
  | ⟨0, _⟩ => show win0_2.index t (0 : Fin 2) * 512 + 1 * p.val = 512 * b.val + p.val; omega
  | ⟨1, _⟩ => show win0_2.index t (1 : Fin 2) * 4096 + 1 * s'.val = 4096 * k.val + s'.val; omega

/-- In row block `b` the diagonal's block is entries `[512b, 512b + 512)` of the diagonal column. -/
theorem diag0_at (c : Dev nD) (t : Fin cfg0.N) (b : Fin 32) (hb : t.val / 4 = b.val) (p : Fin 512) :
    diag0 V c t (ix2 p 0) = diagA V c (ix2 (rowAt0 b p) 0) := by
  obtain ⟨-, -, -, -, -, -, e0, e1, -⟩ := blockIdx0 t
  show V c main_v0 (((cfg0.win 3).blk t).view.emb (ix2 p 0)) = V c main_v0 _
  refine congrArg (V c main_v0) ?_
  funext a; apply Fin.ext
  match a with
  | ⟨0, _⟩ => show win0_3.index t (0 : Fin 2) * 512 + 1 * p.val = 512 * b.val + p.val; omega
  | ⟨1, _⟩ => show win0_3.index t (1 : Fin 2) * 1 + 1 * 0 = 0; omega

/-! ## The accumulator over one row block -/

/-- Term `s` of entry `(512b + p, q)` of `wavelets_inv · (features · W)`. -/
abbrev term0 (c : Dev nD) (b : Fin 32) (p : Fin 512) (q : Fin 32) (s : Fin 16384) : EReal :=
  winvA V c (ix2 (rowAt0 b p) s) * ∑ f : Fin 32, featA V c (ix2 s f) * wgtA V c (ix2 f q)

/-- What the point `4b + k` adds at `(p, q)`: its `wavelets_inv` block's row `p` against column `q` of
    `feat_blk · W`, which is the terms `[4096k, 4096k + 4096)` of the whole row's sum. -/
theorem partial0 (c : Dev nD) (t : Fin cfg0.N) (b : Fin 32) (k : Fin 4) (hb : t.val / 4 = b.val)
    (hk : t.val % 4 = k.val) (p : Fin 512) (q : Fin 32) :
    (∑ s' : Fin 4096, winv0 V c t (ix2 p s') * ∑ f : Fin 32, feat0 V c t (ix2 s' f) * wgt0 V c t (ix2 f q))
      = ∑ s' : Fin 4096, term0 V c b p q (Cert.Spec.at4 k s') := by
  refine Finset.sum_congr rfl fun s' _ => ?_
  rw [winv0_at V c t b k hb hk p s']
  refine congrArg (winvA V c (ix2 (rowAt0 b p) (Cert.Spec.at4 k s')) * ·) ?_
  refine Finset.sum_congr rfl fun f _ => ?_
  rw [feat0_at V c t k hk s' f, wgt0_at V c t f q]

/-- The first step of row block `b` leaves zero plus the first 4096 terms. -/
theorem acc0_step_first (c : Dev nD) (t : Fin cfg0.N) (b : Fin 32) (hb : t.val / 4 = b.val)
    (hk : t.val % 4 = 0) (p : Fin 512) (q : Fin 32) :
    acc0 V c t.val t.isLt (ix2 p q) = 0 + ∑ s' : Fin 4096, term0 V c b p q (Cert.Spec.at4 0 s') := by
  rw [acc0_first V c t hk, pay2_0, pay1_0, partial0 V c t b 0 hb hk p q]

/-- A later step `k` adds the terms `[4096k, 4096k + 4096)` to what the step before left. -/
theorem acc0_step_next (c : Dev nD) (n : ℕ) (hn : n + 1 < cfg0.N) (b : Fin 32) (k : Fin 4)
    (hb : (n + 1) / 4 = b.val) (hk : (n + 1) % 4 = k.val) (hk0 : ¬(n + 1) % 4 = 0) (p : Fin 512) (q : Fin 32) :
    acc0 V c (n + 1) hn (ix2 p q)
      = acc0 V c n (Nat.lt_of_succ_lt hn) (ix2 p q) + ∑ s' : Fin 4096, term0 V c b p q (Cert.Spec.at4 k s') := by
  have h := acc0_next V c ⟨n + 1, hn⟩ hk0
  have h' : acc0 V c (n + 1) hn
      = k0_pay2 (feat0 V c ⟨n + 1, hn⟩) (wgt0 V c ⟨n + 1, hn⟩) (winv0 V c ⟨n + 1, hn⟩) (acc0 V c n (Nat.lt_of_succ_lt hn)) := h
  rw [h', pay2_0, partial0 V c ⟨n + 1, hn⟩ b k hb hk p q]

/-- After the last step of row block `b` the accumulator holds, at `(p, q)`, the whole sum over the 16384
    columns of `wavelets_inv`: the four blocks of terms, added in order to zero. -/
theorem acc0_last (c : Dev nD) (b : Fin 32) (h : 4 * b.val + 2 + 1 < cfg0.N) (p : Fin 512) (q : Fin 32) :
    acc0 V c (4 * b.val + 2 + 1) h (ix2 p q) = ∑ s : Fin 16384, term0 V c b p q s := by
  have hb := b.isLt
  have hN : cfg0.N = 128 := N_0
  rw [acc0_step_next V c (4 * b.val + 2) h b 3 (by show (4 * b.val + 2 + 1) / 4 = b.val; omega)
        (by show (4 * b.val + 2 + 1) % 4 = 3; omega) (by omega) p q,
      acc0_step_next V c (4 * b.val + 1) (by omega) b 2 (by show (4 * b.val + 1 + 1) / 4 = b.val; omega)
        (by show (4 * b.val + 1 + 1) % 4 = 2; omega) (by omega) p q,
      acc0_step_next V c (4 * b.val) (by omega) b 1 (by show (4 * b.val + 1) / 4 = b.val; omega)
        (by show (4 * b.val + 1) % 4 = 1; omega) (by omega) p q,
      acc0_step_first V c ⟨4 * b.val, by omega⟩ b (by show (4 * b.val) / 4 = b.val; omega)
        (by show (4 * b.val) % 4 = 0; omega) p q]
  exact Cert.Spec.sum_four_blocks (term0 V c b p q)

/-! ## The output block a last step writes -/

/-- What the output array ends holding: entry `(r, j)` of `wavelets_inv · (features · W)` times the diagonal's
    entry `r`. -/
abbrev G0 (c : Dev nD) : Vec Ideal S16384x32 .f32 := fun idx =>
  (∑ s : Fin 16384, winvA V c (ix2 (idx 0 : Fin 16384) s)
      * ∑ f : Fin 32, featA V c (ix2 s f) * wgtA V c (ix2 f (idx 1 : Fin 32)))
    * diagA V c (ix2 (idx 0 : Fin 16384) 0)

/-- At the last step of row block `b` the output block is rows `[512b, 512b + 512)` of that array. -/
theorem out0_at (c : Dev nD) (t : Fin cfg0.N) (b : Fin 32) (hb : t.val / 4 = b.val) (h3 : t.val % 4 = 3)
    (p : Fin 512) (q : Fin 32) :
    out0 V c t (ix2 p q) = G0 V c (ix2 (rowAt0 b p) q) := by
  have hbl := b.isLt
  have ht : t.val = 4 * b.val + 2 + 1 := by omega
  have hacc : acc0 V c t.val t.isLt (ix2 p q) = ∑ s : Fin 16384, term0 V c b p q s := by
    obtain ⟨n, hn⟩ := t
    subst ht
    exact acc0_last V c b hn p q
  unfold out0
  rw [pay3_0, hacc, diag0_at V c t b hb p]

/-- What a last step writes back is its block of that array. -/
theorem flushed0_eq (c : Dev nD) (t : Fin cfg0.N) (hf : (cfg0.win 4).flush t = true) :
    (dat0 V c).flushed 4 t = ((cfg0.win 4).blk t).view.read (Elt Ideal) (G0 V c) := by
  have h3 : t.val % 4 = 3 := (flush0_4 t).mp hf
  have hN : cfg0.N = 128 := N_0
  have htl := t.isLt
  obtain ⟨-, -, -, -, -, -, -, -, e0, e1⟩ := blockIdx0 t
  show (cfg0.win 4).cut (grid0.coords t) ((dat0 V c).after 4 t) = _
  rw [after0_4]
  funext y
  show out0 V c t y = G0 V c (((cfg0.win 4).blk t).view.emb y)
  have hy0 : (y 0).val < 512 := (y 0).isLt
  have hy1 : (y 1).val < 32 := (y 1).isLt
  have hemb : ((cfg0.win 4).blk t).view.emb y
      = ix2 (rowAt0 ⟨t.val / 4, by omega⟩ ⟨(y 0).val, hy0⟩) (⟨(y 1).val, hy1⟩ : Fin 32) := by
    funext a; apply Fin.ext
    match a with
    | ⟨0, _⟩ => show win0_4.index t (0 : Fin 2) * 512 + 1 * (y 0).val = 512 * (t.val / 4) + (y 0).val; omega
    | ⟨1, _⟩ => show win0_4.index t (1 : Fin 2) * 32 + 1 * (y 1).val = (y 1).val; omega
  rw [hemb, ← out0_at V c t ⟨t.val / 4, by omega⟩ rfl h3 ⟨(y 0).val, hy0⟩ ⟨(y 1).val, hy1⟩]
  refine congrArg (out0 V c t) ?_
  funext a
  match a with
  | ⟨0, _⟩ => rfl
  | ⟨1, _⟩ => rfl

/-! ## The 32 row blocks tile the array -/

/-- An index of the output array lies in point `t`'s block iff each coordinate lies in the block's range. -/
theorem mem_outBlock0 (t : Fin cfg0.N) (i : S16384x32.Idx) :
    i ∈ ((cfg0.win 4).blk t).view.set
      ↔ ∀ a : Fin 2, win0_4.index t a * S512x32.size a ≤ (i a).val
          ∧ (i a).val < win0_4.index t a * S512x32.size a + S512x32.size a := by
  show i ∈ ((View.whole main_v1).slice (win0_4.rect t)).set ↔ _
  rw [View.set_slice_whole, Rect.mem_set_unit]
  exact Iff.rfl

/-- Row `r` lies in the block written at the last step of row block `r / 512`. -/
theorem cover0 (i : S16384x32.Idx) :
    ∃ t : Fin cfg0.N, (cfg0.win 4).flush t = true ∧ i ∈ ((cfg0.win 4).blk t).view.set := by
  have hi0 : (i 0).val < 16384 := (i 0).isLt
  have hi1 : (i 1).val < 32 := (i 1).isLt
  have hN : cfg0.N = 128 := N_0
  have hlt : 4 * ((i 0).val / 512) + 3 < cfg0.N := by omega
  obtain ⟨-, -, -, -, -, -, -, -, e0, e1⟩ := blockIdx0 ⟨4 * ((i 0).val / 512) + 3, hlt⟩
  have e0' : win0_4.index ⟨4 * ((i 0).val / 512) + 3, hlt⟩ (0 : Fin 2) = (4 * ((i 0).val / 512) + 3) / 4 := e0
  refine ⟨⟨4 * ((i 0).val / 512) + 3, hlt⟩, (flush0_4 _).mpr (by show (4 * ((i 0).val / 512) + 3) % 4 = 3; omega), ?_⟩
  rw [mem_outBlock0]
  intro a
  match a with
  | ⟨0, _⟩ =>
    show win0_4.index ⟨4 * ((i 0).val / 512) + 3, hlt⟩ (0 : Fin 2) * 512 ≤ (i 0).val
      ∧ (i 0).val < win0_4.index ⟨4 * ((i 0).val / 512) + 3, hlt⟩ (0 : Fin 2) * 512 + 512
    omega
  | ⟨1, _⟩ =>
    show win0_4.index ⟨4 * ((i 0).val / 512) + 3, hlt⟩ (1 : Fin 2) * 32 ≤ (i 1).val
      ∧ (i 1).val < win0_4.index ⟨4 * ((i 0).val / 512) + 3, hlt⟩ (1 : Fin 2) * 32 + 32
    omega

/-! ## The whole array -/

/-- After the region's write-backs the output array is `winvA · (featA · wgtA)` with row `r` scaled by the
    column `diagA`'s entry `r`, all as the region found them. -/
theorem result0 (c : Dev nD) (r : Fin 16384) (j : Fin 32) :
    zA V c (ix2 r j)
      = (∑ s : Fin 16384, winvA V c (ix2 r s) * ∑ f : Fin 32, featA V c (ix2 s f) * wgtA V c (ix2 f j))
        * diagA V c (ix2 r 0) := by
  have h : (dat0 V c).arrAt 4 cfg0.N = G0 V c :=
    (dat0 V c).arrAt_eq_of_cover 4 (G0 V c) (fun t hf => flushed0_eq V c t hf) cover0
  exact congrFun h (ix2 r j)

end Cert.KernelIdeal.Hand

end
-- ==== Proof.Value1.lean ====
/-
  The second region's output array, whole.

  Row block i of the output is written once, at the point t = 4·i + 3, from the accumulator, which by then
  has taken the four partial products of the row block: columns [4096k, 4096k + 4096) of the `wavelets`
  rows against rows [4096k, 4096k + 4096) of `y`, for k = 0, 1, 2, 3, added in that order to zero. A sum
  of 16384 terms is its four blocks of 4096 added in order to zero, so the block is rows
  [512i, 512i + 512) of the plain product `wavelets · y`; the 32 row blocks tile the array.
-/
import proofs.«148808_j42442866819263_1_alg».proof.Proof.Region1
import proofs.«148808_j42442866819263_1_alg».proof.Proof.Payloads
import proofs.«148808_j42442866819263_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered, over the extended reals
variable (V : (c : Dev nD) → (b : Ref sig .tc) → Buf (Elt Ideal) ((c : Thread nD τ).loc b))

/-- The operand arrays as the region finds them, and its output array after all write-backs, each at its
    literal type. -/
abbrev wavA (c : Dev nD) : Vec Ideal S16384x16384 .f32 := V c main_arg1
abbrev yA (c : Dev nD) : Vec Ideal S16384x32 .f32 := V c main_v1
abbrev outA (c : Dev nD) : Vec Ideal S16384x32 .f32 := (dat1 V c).arrAt 2 cfg1.N

/-! ## Where the blocks sit -/

/-- At the point t = 4·i + k the wavelets window is at block (i, k), the y window at block (k, 0) and the
    output window at block (i, 0): decided once over the 128 points. -/
private theorem blockIndex1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- Entry (p, s') of the wavelets block at point t is entry (512·(t/4) + p, 4096·(t%4) + s') of wavelets. -/
private theorem wav1_at (c : Dev nD) (t : Fin cfg1.N) (p : Fin 512) (s' : Fin 4096) (i r : Fin 16384)
    (hi : i.val = 512 * (t.val / 4) + p.val) (hr : r.val = 4096 * (t.val % 4) + s'.val) :
    wav1 V c t (ix2 p s') = wavA V c (ix2 i r) := by
  obtain ⟨e0, e1, -⟩ := blockIndex1 t
  show iblk1 V c 0 t (ix2 p s') = _
  unfold iblk1
  rw [View.read_apply]
  show V c main_arg1 _ = V c main_arg1 _
  congr 1
  funext a
  apply Fin.ext
  match a with
  | ⟨0, _⟩ => show win1_0.index t (0 : Fin 2) * 512 + 1 * p.val = i.val; rw [e0, hi]; omega
  | ⟨1, _⟩ => show win1_0.index t (1 : Fin 2) * 4096 + 1 * s'.val = r.val; rw [e1, hr]; omega

/-- Entry (s', q) of the y block at point t is entry (4096·(t%4) + s', q) of y. -/
private theorem y1_at (c : Dev nD) (t : Fin cfg1.N) (s' : Fin 4096) (q : Fin 32) (r : Fin 16384)
    (hr : r.val = 4096 * (t.val % 4) + s'.val) :
    y1 V c t (ix2 s' q) = yA V c (ix2 r q) := by
  obtain ⟨-, -, e2, e3, -⟩ := blockIndex1 t
  show iblk1 V c 1 t (ix2 s' q) = _
  unfold iblk1
  rw [View.read_apply]
  show V c main_v1 _ = V c main_v1 _
  congr 1
  funext a
  apply Fin.ext
  match a with
  | ⟨0, _⟩ => show win1_1.index t (0 : Fin 2) * 4096 + 1 * s'.val = r.val; rw [e2, hr]; omega
  | ⟨1, _⟩ => show win1_1.index t (1 : Fin 2) * 32 + 1 * q.val = q.val; rw [e3]; omega

/-! ## The accumulator over a row block -/

/-- What row `r` of y contributes to entry (i, q) of the product. -/
private abbrev term1 (c : Dev nD) (i : Fin 16384) (q : Fin 32) (r : Fin 16384) : EReal :=
  wavA V c (ix2 i r) * yA V c (ix2 r q)

/-- The block product at point t, entry (p, q), is block k = t%4 of the 4096-term blocks of row
    i = 512·(t/4) + p of the product. -/
private theorem blockProduct1 (c : Dev nD) (t : Fin cfg1.N) (p : Fin 512) (q : Fin 32) (i : Fin 16384) (k : Fin 4)
    (hi : i.val = 512 * (t.val / 4) + p.val) (hk : k.val = t.val % 4) :
    ∑ s' : Fin 4096, wav1 V c t (ix2 p s') * y1 V c t (ix2 s' q)
      = ∑ s' : Fin 4096, term1 V c i q (Cert.Spec.at4 k s') :=
  Finset.sum_congr rfl fun s' _ => by
    have hr : (Cert.Spec.at4 k s').val = 4096 * (t.val % 4) + s'.val := by
      show 4096 * k.val + s'.val = _
      rw [hk]
    rw [wav1_at V c t p s' i (Cert.Spec.at4 k s') hi hr, y1_at V c t s' q (Cert.Spec.at4 k s') hr]

/-- At the first column block of a row block the accumulator is zero plus the first block of terms. -/
private theorem acc1_start (c : Dev nD) (n : ℕ) (h : n < cfg1.N) (h0 : n % 4 = 0) (p : Fin 512) (q : Fin 32) (i : Fin 16384)
    (hi : i.val = 512 * (n / 4) + p.val) :
    acc1 V c n h (ix2 p q) = 0 + ∑ s' : Fin 4096, term1 V c i q (Cert.Spec.at4 0 s') := by
  have e : acc1 V c n h = k1_pay2 (wav1 V c ⟨n, h⟩) (y1 V c ⟨n, h⟩) (k1_pay1 (F := Ideal)) := acc1_first V c ⟨n, h⟩ h0
  rw [e, pay2_1, pay1_1, blockProduct1 V c ⟨n, h⟩ p q i 0 hi (by show 0 = n % 4; omega)]

/-- At a later column block k it is what the point before left plus block k of terms. -/
private theorem acc1_more (c : Dev nD) (n : ℕ) (h : n < cfg1.N) (h0 : ¬n % 4 = 0) (p : Fin 512) (q : Fin 32) (i : Fin 16384)
    (hi : i.val = 512 * (n / 4) + p.val) (k : Fin 4) (hk : k.val = n % 4) :
    acc1 V c n h (ix2 p q)
      = acc1 V c (n - 1) (Nat.lt_of_le_of_lt (Nat.sub_le _ _) h) (ix2 p q) + ∑ s' : Fin 4096, term1 V c i q (Cert.Spec.at4 k s') := by
  have e : acc1 V c n h = k1_pay2 (wav1 V c ⟨n, h⟩) (y1 V c ⟨n, h⟩) (acc1 V c (n - 1) (Nat.lt_of_le_of_lt (Nat.sub_le _ _) h)) :=
    acc1_next V c ⟨n, h⟩ h0
  rw [e, pay2_1, blockProduct1 V c ⟨n, h⟩ p q i k hi hk]

/-- At the last column block the accumulator holds the whole row sum: the four blocks added in order to zero. -/
private theorem acc1_last (c : Dev nD) (t : Fin cfg1.N) (h3 : t.val % 4 = 3) (p : Fin 512) (q : Fin 32) (i : Fin 16384)
    (hi : i.val = 512 * (t.val / 4) + p.val) :
    acc1 V c t.val t.isLt (ix2 p q) = ∑ r : Fin 16384, term1 V c i q r := by
  rw [acc1_more V c t.val t.isLt (by omega) p q i hi 3 (by show 3 = _; omega),
    acc1_more V c (t.val - 1) _ (by omega) p q i (by omega) 2 (by show 2 = _; omega),
    acc1_more V c (t.val - 1 - 1) _ (by omega) p q i (by omega) 1 (by show 1 = _; omega),
    acc1_start V c (t.val - 1 - 1 - 1) _ (by omega) p q i (by omega)]
  exact Cert.Spec.sum_four_blocks _

/-! ## From the row blocks to the array -/

/-- The plain product of the two operand arrays, as one array. -/
private abbrev prodA (c : Dev nD) : Vec Ideal S16384x32 .f32 :=
  fun idx => ∑ r : Fin 16384, wavA V c (ix2 (idx 0) r) * yA V c (ix2 r (idx 1))

/-- The accumulator at the last column block, read at a block entry `x`, is the product at the array entry
    `idx` whose row is 512·(t/4) + row of `x` and whose column is the column of `x`. -/
private theorem acc1_last_entry (c : Dev nD) (t : Fin cfg1.N) (h3 : t.val % 4 = 3) (x : S512x32.Idx) (idx : S16384x32.Idx)
    (h0 : (idx 0).val = 512 * (t.val / 4) + (x 0).val) (h1 : (idx 1).val = (x 1).val) :
    acc1 V c t.val t.isLt x = prodA V c idx := by
  obtain ⟨a, b, rfl⟩ : ∃ (a : Fin 512) (b : Fin 32), x = ix2 a b := ⟨x 0, x 1, eq_ix2 x⟩
  have hc : idx 1 = b := Fin.ext h1
  rw [acc1_last V c t h3 a b (idx 0) h0]
  show _ = ∑ r : Fin 16384, wavA V c (ix2 (idx 0) r) * yA V c (ix2 r (idx 1))
  rw [hc]

/-- What a point with k = 3 writes back is its block of the product. -/
private theorem flushed1_eq (c : Dev nD) (t : Fin cfg1.N) (hf : (cfg1.win 2).flush t = true) :
    (dat1 V c).flushed 2 t = ((cfg1.win 2).blk t).view.read (Elt Ideal) (prodA V c) := by
  have h3 : t.val % 4 = 3 := (flush1_2 t).mp hf
  obtain ⟨-, -, -, -, e4, e5⟩ := blockIndex1 t
  show (cfg1.win 2).cut (grid1.coords t) ((dat1 V c).after 2 t) = _
  rw [after1_2]
  funext x
  rw [View.read_apply, cast_eq]
  refine acc1_last_entry V c t h3 x (((cfg1.win 2).blk t).view.emb x) ?_ ?_
  · show win1_2.index t (0 : Fin 2) * 512 + 1 * (x 0).val = _
    rw [e4]; omega
  · show win1_2.index t (1 : Fin 2) * 32 + 1 * (x 1).val = _
    rw [e5]; omega

/-- Row r of the output lies in the block written at the point 4·(r / 512) + 3: the 32 row blocks tile the array. -/
private theorem cover1 (idx : S16384x32.Idx) :
    ∃ t : Fin cfg1.N, (cfg1.win 2).flush t = true ∧ idx ∈ ((cfg1.win 2).blk t).view.set := by
  have hr : (idx 0).val < 16384 := idx2_lt0 idx
  have hc : (idx 1).val < 32 := idx2_lt1 idx
  obtain ⟨t, ht⟩ : ∃ t : Fin cfg1.N, t.val = 4 * ((idx 0).val / 512) + 3 :=
    ⟨⟨4 * ((idx 0).val / 512) + 3, Nat.lt_of_lt_of_eq (by omega) (N_1 : cfg1.N = 128).symm⟩, rfl⟩
  obtain ⟨-, -, -, -, e4, e5⟩ := blockIndex1 t
  refine ⟨t, (flush1_2 t).mpr (by rw [ht]; omega), ?_⟩
  show idx ∈ ((View.whole main_v2).slice (win1_2.rect t)).set
  rw [View.set_slice_whole, Rect.mem_set_unit]
  intro a
  match a with
  | ⟨0, _⟩ =>
    show win1_2.index t (0 : Fin 2) * 512 ≤ (idx 0).val ∧ (idx 0).val < win1_2.index t (0 : Fin 2) * 512 + 512
    rw [e4, ht]; omega
  | ⟨1, _⟩ =>
    show win1_2.index t (1 : Fin 2) * 32 ≤ (idx 1).val ∧ (idx 1).val < win1_2.index t (1 : Fin 2) * 32 + 32
    rw [e5]; omega

/-- So after the write-backs the output array is the product. -/
private theorem outA_eq (c : Dev nD) : outA V c = prodA V c :=
  (dat1 V c).arrAt_eq_of_cover 2 (prodA V c) (flushed1_eq V c) cover1

/-- After the region's write-backs the output array is the product of the two operand arrays as the region
    found them: row `i`, column `j` is the sum over `r` of `wavA i r · yA r j`. -/
theorem result1 (c : Dev nD) (i : Fin 16384) (j : Fin 32) :
    outA V c (ix2 i j) = ∑ r : Fin 16384, wavA V c (ix2 i r) * yA V c (ix2 r j) :=
  congrFun (outA_eq V c) (ix2 i j)

end Cert.KernelIdeal.Hand

end
-- ==== Proof.KernelValue.lean ====
/-
  The kernel's result is the specification of the five arguments.

  The second region's output array is `wavelets · Y`, where `Y` is what the first region left in its output
  array and `wavelets` is still the launch's (no item of @main writes an argument). `Y` in turn is
  `wavelets_inv · (features · W)` with row `r` scaled by the column the reshape made of the diagonal, whose
  entry at `(r, 0)` is `diag r`. So at row `i`, column `j` the result is
      ∑ r, wavelets i r · ((∑ s, wavelets_inv r s · ∑ f, features s f · W f j) · diag r),
  which is the specification's sum with the product by the diagonal written on the other side.
-/
import proofs.«148808_j42442866819263_1_alg».proof.Proof.Launch
import proofs.«148808_j42442866819263_1_alg».proof.Proof.Value0
import proofs.«148808_j42442866819263_1_alg».proof.Proof.Value1
import proofs.«148808_j42442866819263_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Cert.Spec

variable (m : (ℓ : Loc nD τ sig) → Buf (Elt Ideal) ℓ)

/-! ## The five arguments at launch, each at its literal type -/

abbrev aFeat (c : Dev nD) : Vec Ideal S16384x32 .f32 := m ((c : Thread nD τ).loc main_arg0)
abbrev aWav (c : Dev nD) : Vec Ideal S16384x16384 .f32 := m ((c : Thread nD τ).loc main_arg1)
abbrev aWinv (c : Dev nD) : Vec Ideal S16384x16384 .f32 := m ((c : Thread nD τ).loc main_arg2)
abbrev aDiag (c : Dev nD) : Vec Ideal S16384 .f32 := m ((c : Thread nD τ).loc main_arg3)
abbrev aW (c : Dev nD) : Vec Ideal S32x32 .f32 := m ((c : Thread nD τ).loc main_arg4)

/-! ## What each region finds -/

/-- The first region finds features, the weight matrix and wavelets_inv as launched: the reshape writes
    only the diagonal's column. -/
theorem feat_found (c : Dev nD) : featA (Vh m) c = aFeat m c := Wh_of m c main_arg0 (by decide)
theorem wgt_found (c : Dev nD) : wgtA (Vh m) c = aW m c := Wh_of m c main_arg4 (by decide)
theorem winv_found (c : Dev nD) : winvA (Vh m) c = aWinv m c := Wh_of m c main_arg2 (by decide)

/-- The column it finds is the diagonal reshaped: its entry at `(r, 0)` is `diag r`. -/
theorem diag_found (c : Dev nD) (r : Fin 16384) : diagA (Vh m) c (ix2 r 0) = aDiag m c (ix1 r) := by
  have e : diagA (Vh m) c = shapeCast S16384x1 (aDiag m c) shapeCasts_S16384_S16384x1 := by
    show StableHlo.after hostOps0 (fun b => m (c, b)) (Proc.devRef .tc main_v0) = _
    after_results
    rfl
  rw [e]
  refine shapeCast_apply (aDiag m c) shapeCasts_S16384_S16384x1 (ix2 r 0) (ix1 r) ?_
  rw [Shape.rowMajor_val_one, Shape.rowMajor_val_two]
  show r.val = r.val * 1 + 0
  omega

/-- The second region finds wavelets as launched (the first region has no window on it), -/
theorem wav_found (c : Dev nD) : wavA (Vy m) c = aWav m c :=
  (Wy_of_ne m c main_arg1 (by decide)).trans (Wh_of m c main_arg1 (by decide))
/-- and, in the first region's output array, what that region's write-backs left. -/
theorem y_found (c : Dev nD) : yA (Vy m) c = zA (Vh m) c := Wy_arr m c 4

/-! ## The result -/

/-- The second region's output array, index by index, is the specification of the launch's arguments. -/
theorem kernel_is_G (c : Dev nD) :
    outA (Vy m) c = G (aFeat m c) (aWav m c) (aWinv m c) (aDiag m c) (aW m c) := by
  funext idx
  obtain ⟨i, j, rfl⟩ : ∃ (i : Fin 16384) (j : Fin 32), idx = ix2 i j := ⟨idx 0, idx 1, eq_ix2 idx⟩
  rw [result1 (Vy m) c i j, wav_found, y_found]
  unfold G yS zS xS
  refine Finset.sum_congr rfl fun r _ => ?_
  rw [result0 (Vh m) c r j, feat_found, wgt_found, winv_found, diag_found]
  exact congrArg (aWav m c (ix2 i r) * ·) (mul_comm _ _)

end Cert.KernelIdeal.Hand

end
-- ==== Proof.RefSide.lean ====
/-
  The reference side. The reference computes, on the host,
    x = features · W,  z = wavelets_inv · x,  y = diag ⊙ z (each row scaled),  out = wavelets · y,
  one operation per stage. Read at an index, the stages are the nested sums of the specification:
  the last product's row `i`, column `j` is the sum over `r` of `wavelets i r` times the scaled row `r`
  of `z`, and so on inward. Nothing here needs the inputs finite.
-/
import proofs.«148808_j42442866819263_1_alg».proof.Proof.Gen.ReferenceIdeal.Run
import proofs.«148808_j42442866819263_1_alg».proof.Proof.Gen.ReferenceIdeal.Read
import proofs.«148808_j42442866819263_1_alg».proof.Proof.Spec

noncomputable section

namespace Cert.ReferenceIdeal.RefSide

open Cert.ReferenceIdeal Cert.ReferenceIdeal.Gen Cert.ReferenceIdeal.Read
open Idealize.ShloMosaic Idealize.ShloMosaic.ValueIdx Cert.Spec

/-! ### Where a product reads its factors

At row `i 0`, column `i 1` of a product `A · B`, the term numbered `k` of the sum is `A` at `(i 0, k)`
times `B` at `(k, i 1)`. The generated statements spell those two positions coordinate by coordinate;
here each is identified, once, with the pair the specification writes. -/

/-- `features · W`: the left factor is read at (row, `f`). -/
private theorem left_of_x (i : S16384x32.Idx) (f : Fin 32) :
    lidx_main_v0 i f = ix2 (n0 := 16384) (n1 := 32) (i 0) f :=
  funext fun a => match a with | ⟨0, _⟩ => rfl | ⟨1, _⟩ => rfl

/-- `features · W`: the right factor is read at (`f`, column). -/
private theorem right_of_x (i : S16384x32.Idx) (f : Fin 32) :
    ridx_main_v0 i f = ix2 (n0 := 32) (n1 := 32) f (i 1) :=
  funext fun a => match a with | ⟨0, _⟩ => rfl | ⟨1, _⟩ => rfl

/-- `wavelets_inv · x`: the left factor is read at (row, `s`). -/
private theorem left_of_z (i : S16384x32.Idx) (s : Fin 16384) :
    lidx_main_v1 i s = ix2 (n0 := 16384) (n1 := 16384) (i 0) s :=
  funext fun a => match a with | ⟨0, _⟩ => rfl | ⟨1, _⟩ => rfl

/-- `wavelets_inv · x`: the right factor is read at (`s`, column). -/
private theorem right_of_z (i : S16384x32.Idx) (s : Fin 16384) :
    ridx_main_v1 i s = ix2 (n0 := 16384) (n1 := 32) s (i 1) :=
  funext fun a => match a with | ⟨0, _⟩ => rfl | ⟨1, _⟩ => rfl

/-- `wavelets · y`: the left factor is read at (row, `r`). -/
private theorem left_of_out (i : S16384x32.Idx) (r : Fin 16384) :
    lidx_main_v5 i r = ix2 (n0 := 16384) (n1 := 16384) (i 0) r :=
  funext fun a => match a with | ⟨0, _⟩ => rfl | ⟨1, _⟩ => rfl

/-- `wavelets · y`: the right factor is read at (`r`, column). -/
private theorem right_of_out (i : S16384x32.Idx) (r : Fin 16384) :
    ridx_main_v5 i r = ix2 (n0 := 16384) (n1 := 32) r (i 1) :=
  funext fun a => match a with | ⟨0, _⟩ => rfl | ⟨1, _⟩ => rfl

/-- The diagonal, spread first to a column and then across the 32 columns, is read at the row alone. -/
private theorem diag_position (i : S16384x32.Idx) :
    idx_main_v2 (idx_main_v3 i) = ix1 (n := 16384) (i 0) :=
  funext fun a => match a with | ⟨0, _⟩ => rfl

/-! ### The stages, innermost first -/

/-- The first product is `x = features · W`. -/
private theorem stage_x (x0 : (⟨S16384x32, .f32⟩ : BufTy).Contents (Elt Ideal)) (x4 : (⟨S32x32, .f32⟩ : BufTy).Contents (Elt Ideal))
    (i : S16384x32.Idx) :
    val_main_v0 (F := Ideal) x0 x4 i = xS x0 x4 (i 0) (i 1) := by
  rw [val_main_v0_apply]
  unfold xS
  refine Finset.sum_congr rfl fun f _ => ?_
  rw [left_of_x, right_of_x]

/-- The second product is `z = wavelets_inv · x`. -/
private theorem stage_z (x0 : (⟨S16384x32, .f32⟩ : BufTy).Contents (Elt Ideal)) (x2 : (⟨S16384x16384, .f32⟩ : BufTy).Contents (Elt Ideal))
    (x4 : (⟨S32x32, .f32⟩ : BufTy).Contents (Elt Ideal)) (i : S16384x32.Idx) :
    val_main_v1 (F := Ideal) x0 x2 x4 i = zS x0 x4 x2 (i 0) (i 1) := by
  rw [val_main_v1_apply]
  unfold zS
  refine Finset.sum_congr rfl fun s _ => ?_
  rw [left_of_z, right_of_z, stage_x]

/-- The spread diagonal holds `diag r` all along row `r`. -/
private theorem stage_diag (x3 : (⟨S16384, .f32⟩ : BufTy).Contents (Elt Ideal)) (i : S16384x32.Idx) :
    val_main_v3 (F := Ideal) x3 i = x3 (ix1 (n := 16384) (i 0)) := by
  rw [val_main_v3_apply, val_main_v2_apply, diag_position]

/-- The scaled rows are `y = diag ⊙ z`, the diagonal on the left of each product. -/
private theorem stage_y (x0 : (⟨S16384x32, .f32⟩ : BufTy).Contents (Elt Ideal)) (x2 : (⟨S16384x16384, .f32⟩ : BufTy).Contents (Elt Ideal))
    (x3 : (⟨S16384, .f32⟩ : BufTy).Contents (Elt Ideal)) (x4 : (⟨S32x32, .f32⟩ : BufTy).Contents (Elt Ideal)) (i : S16384x32.Idx) :
    val_main_v4 (F := Ideal) x0 x2 x3 x4 i = yS x0 x4 x2 x3 (i 0) (i 1) := by
  rw [val_main_v4_apply, stage_diag, stage_z]
  rfl

/-- The reference's result, as its last stage, is the specification `G` of the five arguments. -/
theorem ref_is_G (x0 : (⟨S16384x32, .f32⟩ : BufTy).Contents (Elt Ideal)) (x1 x2 : (⟨S16384x16384, .f32⟩ : BufTy).Contents (Elt Ideal))
    (x3 : (⟨S16384, .f32⟩ : BufTy).Contents (Elt Ideal)) (x4 : (⟨S32x32, .f32⟩ : BufTy).Contents (Elt Ideal)) :
    val_main_v5 (F := Ideal) x0 x1 x2 x3 x4 = G x0 x1 x2 x3 x4 := by
  funext i
  rw [val_main_v5_apply]
  unfold G
  refine Finset.sum_congr rfl fun r _ => ?_
  rw [left_of_out, right_of_out, stage_y]

end Cert.ReferenceIdeal.RefSide

end
-- ==== Proof.lean ====
/-
  Two tiled products against three plain ones.

  The reference computes  out = wavelets · (diag ⊙ (wavelets_inv · (features · W)))  with N = 16384 rows and 32
  feature columns. The kernel program does the same in two pallas_calls. Each walks a 32 × 4 grid: for row block
  i (512 rows) and column block k (4096 columns) it adds the block product to an accumulator kept in a scratch
  buffer, zeroed at k = 0, and at k = 3 writes the row block of its output — the first call computing
  `features_blk · W` on the fly and scaling row r by `diag r` at the end, the second a plain product.

  * The three frames: both kernel programs run to the end without a fault and leave their arguments as launched
    — one argument, written once for any float instance and read at the word level and at the extended reals;
    the reference's run is its six host operations.
  * Nothing was rewritten when the kernel program was read over the extended reals, so that reading is trivially
    the sanctioned one.
  * Over the extended reals both results are, at row i and column j,
        ∑ r, wavelets i r · (diag r · ∑ s, wavelets_inv r s · ∑ f, features s f · W f j):
    a change of float format is the identity, a block product into zero is a plain sum, four blocks of 4096
    terms added in order to zero are the sum of all 16384, and the product by the diagonal commutes. None of these
    needs a finite input, so the precondition is never opened.
-/
import proofs.«148808_j42442866819263_1_alg».proof.Defs
import proofs.«148808_j42442866819263_1_alg».proof.Proof.Gen.Kernel
import proofs.«148808_j42442866819263_1_alg».proof.Proof.Gen.KernelIdeal
import proofs.«148808_j42442866819263_1_alg».proof.Proof.Gen.ReferenceIdeal
import proofs.«148808_j42442866819263_1_alg».proof.Proof.Gen.Pre_finite_inputs
import proofs.«148808_j42442866819263_1_alg».proof.Proof.WordLaunch
import proofs.«148808_j42442866819263_1_alg».proof.Proof.Launch
import proofs.«148808_j42442866819263_1_alg».proof.Proof.KernelValue
import proofs.«148808_j42442866819263_1_alg».proof.Proof.RefSide

noncomputable section

namespace Cert.Proof

open Idealize.ShloMosaic Idealize.SL.Sem

/-- The kernel program at the word level runs and keeps its arguments. -/
theorem frame_word : Cert.frame_Kernel := fun m ρ _ => Cert.Kernel.Hand.frame (F := Bits) m ρ

/-- So does its reading over the extended reals. -/
theorem frame_ideal : Cert.frame_KernelIdeal := fun m ρ _ => Cert.KernelIdeal.Hand.frame (F := Ideal) m ρ

/-- The reference runs and keeps its arguments: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the five arguments both programs end with the same result: the kernel's output
    array is the specification of its arguments, and so is the reference's last stage. -/
theorem algebraic : Cert.algebraic_KernelIdeal_ReferenceIdeal := by
  intro m ρ m' ρ' _ hagree
  refine ⟨fun c => Cert.KernelIdeal.Hand.outA (Cert.KernelIdeal.Hand.Vy m) c, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefSide.ref_is_G,
    (hagree c).1, (hagree c).2.1, (hagree c).2.2.1, (hagree c).2.2.2.1, (hagree c).2.2.2.2]
  exact (Cert.KernelIdeal.Hand.kernel_is_G m c).symm

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
